-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x8192x8192 : Shape := ⟨4, ![1, 1, 8192, 8192]⟩
abbrev S_ : Shape := ⟨0, ![]⟩

class Facts : Prop where
  bcast_S_S1x1x8192x8192 : S_.BroadcastsInDim S1x1x8192x8192 (![] : Fin 0 → Fin S1x1x8192x8192.rank)
  reducesTo_S1x1x8192x8192_S_d0_1_2_3 : S1x1x8192x8192.ReducesTo [0, 1, 2, 3] S_
  h_S_ : 0 < S_.numel

variable [Facts]

def fn {F : FTy → Type} [FloatOps F] (main_arg0 : FVec F S1x1x8192x8192 .f32) : IVec S_ 1 :=
  let main_v0 : FVec F S1x1x8192x8192 .f32 := Host.absf main_arg0
  let main_cst : FVec F S_ .f32 := constant S_ .f32 0x7F800000#32
  let main_v1 : FVec F S1x1x8192x8192 .f32 := broadcastInDim S1x1x8192x8192 ![] bcast_S_S1x1x8192x8192 main_cst
  let main_v2 : IVec S1x1x8192x8192 1 := cmpf .olt main_v0 main_v1
  let main_c : IVec S_ 1 := constantI S_ 1 1#1
  let main_v3 : IVec S_ 1 := (fun x v => Host.reduce IntOp.andi x v reducesTo_S1x1x8192x8192_S_d0_1_2_3 h_S_) main_v2 main_c
  main_v3
-- ==== Kernel.lean ====
abbrev S1x1x8192x8192 : Shape := ⟨4, ![1, 1, 8192, 8192]⟩
abbrev S8192x8192 : Shape := ⟨2, ![8192, 8192]⟩
abbrev S2048x2048 : Shape := ⟨2, ![2048, 2048]⟩
abbrev S512x2048 : Shape := ⟨2, ![512, 2048]⟩
abbrev S2x8x128x2x8x128 : Shape := ⟨6, ![2, 8, 128, 2, 8, 128]⟩
abbrev S_ : Shape := ⟨0, ![]⟩
abbrev S2x128x2x128 : Shape := ⟨4, ![2, 128, 2, 128]⟩
abbrev S2x1x128x2x1x128 : Shape := ⟨6, ![2, 1, 128, 2, 1, 128]⟩
abbrev S256x256 : Shape := ⟨2, ![256, 256]⟩
abbrev S4x8x8x4x8x8 : Shape := ⟨6, ![4, 8, 8, 4, 8, 8]⟩
abbrev S4x8x4x8 : Shape := ⟨4, ![4, 8, 4, 8]⟩
abbrev S4x1x8x4x1x8 : Shape := ⟨6, ![4, 1, 8, 4, 1, 8]⟩
abbrev S32x32 : Shape := ⟨2, ![32, 32]⟩
abbrev S8x4x1x8x4x1 : Shape := ⟨6, ![8, 4, 1, 8, 4, 1]⟩
abbrev S8x1x8x1 : Shape := ⟨4, ![8, 1, 8, 1]⟩
abbrev S8x1x1x8x1x1 : Shape := ⟨6, ![8, 1, 1, 8, 1, 1]⟩
abbrev S8x8 : Shape := ⟨2, ![8, 8]⟩

abbrev nBuf : Space → Nat
  | .hbm => 75
  | .vmem => 4
  | .smem => 0
  | _ => 0

abbrev bufTy : (tb : Table) → Fin (tcTables nBuf tb) → BufTy
  | .hbm, ⟨0, _⟩ => ⟨S1x1x8192x8192, .f32⟩
  | .hbm, ⟨1, _⟩ => ⟨S8192x8192, .f32⟩
  | .hbm, ⟨2, _⟩ => ⟨S2048x2048, .f32⟩
  | .hbm, ⟨3, _⟩ => ⟨S2x8x128x2x8x128, .f32⟩
  | .hbm, ⟨4, _⟩ => ⟨S_, .f32⟩
  | .hbm, ⟨5, _⟩ => ⟨S2x128x2x128, .f32⟩
  | .hbm, ⟨6, _⟩ => ⟨S2x1x128x2x1x128, .f32⟩
  | .hbm, ⟨7, _⟩ => ⟨S2x128x2x128, .f32⟩
  | .hbm, ⟨8, _⟩ => ⟨S2x128x2x128, .f32⟩
  | .hbm, ⟨9, _⟩ => ⟨S2x1x128x2x1x128, .f32⟩
  | .hbm, ⟨10, _⟩ => ⟨S2x128x2x128, .f32⟩
  | .hbm, ⟨11, _⟩ => ⟨S2x128x2x128, .f32⟩
  | .hbm, ⟨12, _⟩ => ⟨S2x1x128x2x1x128, .f32⟩
  | .hbm, ⟨13, _⟩ => ⟨S2x128x2x128, .f32⟩
  | .hbm, ⟨14, _⟩ => ⟨S2x128x2x128, .f32⟩
  | .hbm, ⟨15, _⟩ => ⟨S2x1x128x2x1x128, .f32⟩
  | .hbm, ⟨16, _⟩ => ⟨S2x128x2x128, .f32⟩
  | .hbm, ⟨17, _⟩ => ⟨S2x128x2x128, .f32⟩
  | .hbm, ⟨18, _⟩ => ⟨S2x1x128x2x1x128, .f32⟩
  | .hbm, ⟨19, _⟩ => ⟨S2x128x2x128, .f32⟩
  | .hbm, ⟨20, _⟩ => ⟨S2x128x2x128, .f32⟩
  | .hbm, ⟨21, _⟩ => ⟨S2x1x128x2x1x128, .f32⟩
  | .hbm, ⟨22, _⟩ => ⟨S2x128x2x128, .f32⟩
  | .hbm, ⟨23, _⟩ => ⟨S2x128x2x128, .f32⟩
  | .hbm, ⟨24, _⟩ => ⟨S2x1x128x2x1x128, .f32⟩
  | .hbm, ⟨25, _⟩ => ⟨S2x128x2x128, .f32⟩
  | .hbm, ⟨26, _⟩ => ⟨S2x128x2x128, .f32⟩
  | .hbm, ⟨27, _⟩ => ⟨S2x1x128x2x1x128, .f32⟩
  | .hbm, ⟨28, _⟩ => ⟨S2x128x2x128, .f32⟩
  | .hbm, ⟨29, _⟩ => ⟨S2x128x2x128, .f32⟩
  | .hbm, ⟨30, _⟩ => ⟨S256x256, .f32⟩
  | .hbm, ⟨31, _⟩ => ⟨S4x8x8x4x8x8, .f32⟩
  | .hbm, ⟨32, _⟩ => ⟨S_, .f32⟩
  | .hbm, ⟨33, _⟩ => ⟨S4x8x4x8, .f32⟩
  | .hbm, ⟨34, _⟩ => ⟨S4x1x8x4x1x8, .f32⟩
  | .hbm, ⟨35, _⟩ => ⟨S4x8x4x8, .f32⟩
  | .hbm, ⟨36, _⟩ => ⟨S4x8x4x8, .f32⟩
  | .hbm, ⟨37, _⟩ => ⟨S4x1x8x4x1x8, .f32⟩
  | .hbm, ⟨38, _⟩ => ⟨S4x8x4x8, .f32⟩
  | .hbm, ⟨39, _⟩ => ⟨S4x8x4x8, .f32⟩
  | .hbm, ⟨40, _⟩ => ⟨S4x1x8x4x1x8, .f32⟩
  | .hbm, ⟨41, _⟩ => ⟨S4x8x4x8, .f32⟩
  | .hbm, ⟨42, _⟩ => ⟨S4x8x4x8, .f32⟩
  | .hbm, ⟨43, _⟩ => ⟨S4x1x8x4x1x8, .f32⟩
  | .hbm, ⟨44, _⟩ => ⟨S4x8x4x8, .f32⟩
  | .hbm, ⟨45, _⟩ => ⟨S4x8x4x8, .f32⟩
  | .hbm, ⟨46, _⟩ => ⟨S4x1x8x4x1x8, .f32⟩
  | .hbm, ⟨47, _⟩ => ⟨S4x8x4x8, .f32⟩
  | .hbm, ⟨48, _⟩ => ⟨S4x8x4x8, .f32⟩
  | .hbm, ⟨49, _⟩ => ⟨S4x1x8x4x1x8, .f32⟩
  | .hbm, ⟨50, _⟩ => ⟨S4x8x4x8, .f32⟩
  | .hbm, ⟨51, _⟩ => ⟨S4x8x4x8, .f32⟩
  | .hbm, ⟨52, _⟩ => ⟨S4x1x8x4x1x8, .f32⟩
  | .hbm, ⟨53, _⟩ => ⟨S4x8x4x8, .f32⟩
  | .hbm, ⟨54, _⟩ => ⟨S4x8x4x8, .f32⟩
  | .hbm, ⟨55, _⟩ => ⟨S4x1x8x4x1x8, .f32⟩
  | .hbm, ⟨56, _⟩ => ⟨S4x8x4x8, .f32⟩
  | .hbm, ⟨57, _⟩ => ⟨S4x8x4x8, .f32⟩
  | .hbm, ⟨58, _⟩ => ⟨S32x32, .f32⟩
  | .hbm, ⟨59, _⟩ => ⟨S8x4x1x8x4x1, .f32⟩
  | .hbm, ⟨60, _⟩ => ⟨S_, .f32⟩
  | .hbm, ⟨61, _⟩ => ⟨S8x1x8x1, .f32⟩
  | .hbm, ⟨62, _⟩ => ⟨S8x1x1x8x1x1, .f32⟩
  | .hbm, ⟨63, _⟩ => ⟨S8x1x8x1, .f32⟩
  | .hbm, ⟨64, _⟩ => ⟨S8x1x8x1, .f32⟩
  | .hbm, ⟨65, _⟩ => ⟨S8x1x1x8x1x1, .f32⟩
  | .hbm, ⟨66, _⟩ => ⟨S8x1x8x1, .f32⟩
  | .hbm, ⟨67, _⟩ => ⟨S8x1x8x1, .f32⟩
  | .hbm, ⟨68, _⟩ => ⟨S8x1x1x8x1x1, .f32⟩
  | .hbm, ⟨69, _⟩ => ⟨S8x1x8x1, .f32⟩
  | .hbm, ⟨70, _⟩ => ⟨S8x1x8x1, .f32⟩
  | .hbm, ⟨71, _⟩ => ⟨S8x1x1x8x1x1, .f32⟩
  | .hbm, ⟨72, _⟩ => ⟨S8x1x8x1, .f32⟩
  | .hbm, ⟨73, _⟩ => ⟨S8x1x8x1, .f32⟩
  | .hbm, ⟨74, _⟩ => ⟨S8x8, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S1x1x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_cst_0 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_cst_1 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S1x1x8192x8192_S8192x8192 : S1x1x8192x8192.ShapeCasts S8192x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S2048x2048_S2x8x128x2x8x128 : S2048x2048.ShapeCasts S2x8x128x2x8x128
  bcast_S_S2x128x2x128 : S_.BroadcastsInDim S2x128x2x128 (![] : Fin 0 → Fin S2x128x2x128.rank)
  slices_S2x8x128x2x8x128_S2x1x128x2x1x128_0_0_0_0_0_0 : S2x8x128x2x8x128.Slices ![0, 0, 0, 0, 0, 0] S2x1x128x2x1x128
  shapeCasts_S2x1x128x2x1x128_S2x128x2x128 : S2x1x128x2x1x128.ShapeCasts S2x128x2x128
  slices_S2x8x128x2x8x128_S2x1x128x2x1x128_0_1_0_0_1_0 : S2x8x128x2x8x128.Slices ![0, 1, 0, 0, 1, 0] S2x1x128x2x1x128
  slices_S2x8x128x2x8x128_S2x1x128x2x1x128_0_2_0_0_2_0 : S2x8x128x2x8x128.Slices ![0, 2, 0, 0, 2, 0] S2x1x128x2x1x128
  slices_S2x8x128x2x8x128_S2x1x128x2x1x128_0_3_0_0_3_0 : S2x8x128x2x8x128.Slices ![0, 3, 0, 0, 3, 0] S2x1x128x2x1x128
  slices_S2x8x128x2x8x128_S2x1x128x2x1x128_0_4_0_0_4_0 : S2x8x128x2x8x128.Slices ![0, 4, 0, 0, 4, 0] S2x1x128x2x1x128
  slices_S2x8x128x2x8x128_S2x1x128x2x1x128_0_5_0_0_5_0 : S2x8x128x2x8x128.Slices ![0, 5, 0, 0, 5, 0] S2x1x128x2x1x128
  slices_S2x8x128x2x8x128_S2x1x128x2x1x128_0_6_0_0_6_0 : S2x8x128x2x8x128.Slices ![0, 6, 0, 0, 6, 0] S2x1x128x2x1x128
  slices_S2x8x128x2x8x128_S2x1x128x2x1x128_0_7_0_0_7_0 : S2x8x128x2x8x128.Slices ![0, 7, 0, 0, 7, 0] S2x1x128x2x1x128
  shapeCasts_S2x128x2x128_S256x256 : S2x128x2x128.ShapeCasts S256x256
  shapeCasts_S256x256_S4x8x8x4x8x8 : S256x256.ShapeCasts S4x8x8x4x8x8
  bcast_S_S4x8x4x8 : S_.BroadcastsInDim S4x8x4x8 (![] : Fin 0 → Fin S4x8x4x8.rank)
  slices_S4x8x8x4x8x8_S4x1x8x4x1x8_0_0_0_0_0_0 : S4x8x8x4x8x8.Slices ![0, 0, 0, 0, 0, 0] S4x1x8x4x1x8
  shapeCasts_S4x1x8x4x1x8_S4x8x4x8 : S4x1x8x4x1x8.ShapeCasts S4x8x4x8
  slices_S4x8x8x4x8x8_S4x1x8x4x1x8_0_1_0_0_1_0 : S4x8x8x4x8x8.Slices ![0, 1, 0, 0, 1, 0] S4x1x8x4x1x8
  slices_S4x8x8x4x8x8_S4x1x8x4x1x8_0_2_0_0_2_0 : S4x8x8x4x8x8.Slices ![0, 2, 0, 0, 2, 0] S4x1x8x4x1x8
  slices_S4x8x8x4x8x8_S4x1x8x4x1x8_0_3_0_0_3_0 : S4x8x8x4x8x8.Slices ![0, 3, 0, 0, 3, 0] S4x1x8x4x1x8
  slices_S4x8x8x4x8x8_S4x1x8x4x1x8_0_4_0_0_4_0 : S4x8x8x4x8x8.Slices ![0, 4, 0, 0, 4, 0] S4x1x8x4x1x8
  slices_S4x8x8x4x8x8_S4x1x8x4x1x8_0_5_0_0_5_0 : S4x8x8x4x8x8.Slices ![0, 5, 0, 0, 5, 0] S4x1x8x4x1x8
  slices_S4x8x8x4x8x8_S4x1x8x4x1x8_0_6_0_0_6_0 : S4x8x8x4x8x8.Slices ![0, 6, 0, 0, 6, 0] S4x1x8x4x1x8
  slices_S4x8x8x4x8x8_S4x1x8x4x1x8_0_7_0_0_7_0 : S4x8x8x4x8x8.Slices ![0, 7, 0, 0, 7, 0] S4x1x8x4x1x8
  shapeCasts_S4x8x4x8_S32x32 : S4x8x4x8.ShapeCasts S32x32
  shapeCasts_S32x32_S8x4x1x8x4x1 : S32x32.ShapeCasts S8x4x1x8x4x1
  bcast_S_S8x1x8x1 : S_.BroadcastsInDim S8x1x8x1 (![] : Fin 0 → Fin S8x1x8x1.rank)
  slices_S8x4x1x8x4x1_S8x1x1x8x1x1_0_0_0_0_0_0 : S8x4x1x8x4x1.Slices ![0, 0, 0, 0, 0, 0] S8x1x1x8x1x1
  shapeCasts_S8x1x1x8x1x1_S8x1x8x1 : S8x1x1x8x1x1.ShapeCasts S8x1x8x1
  slices_S8x4x1x8x4x1_S8x1x1x8x1x1_0_1_0_0_1_0 : S8x4x1x8x4x1.Slices ![0, 1, 0, 0, 1, 0] S8x1x1x8x1x1
  slices_S8x4x1x8x4x1_S8x1x1x8x1x1_0_2_0_0_2_0 : S8x4x1x8x4x1.Slices ![0, 2, 0, 0, 2, 0] S8x1x1x8x1x1
  slices_S8x4x1x8x4x1_S8x1x1x8x1x1_0_3_0_0_3_0 : S8x4x1x8x4x1.Slices ![0, 3, 0, 0, 3, 0] S8x1x1x8x1x1
  shapeCasts_S8x1x8x1_S8x8 : S8x1x8x1.ShapeCasts S8x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x1x8192x8192 : Shape := ⟨4, ![1, 1, 8192, 8192]⟩
abbrev S2x2x2x2x2x2x2x2x2x2x2x2x2x2x2x2x2x2x2x2x2x2x2x2x2x2 : Shape := ⟨26, ![2, 2, 2, 2, 2, 2, 2, 2, 2, 2, 2, 2, 2, 2, 2, 2, 2, 2, 2, 2, 2, 2, 2, 2, 2, 2]⟩
abbrev S2x2 : Shape := ⟨2, ![2, 2]⟩
abbrev S_ : Shape := ⟨0, ![]⟩
abbrev S2x2x2x2x2x2x2x2x2x2x2x2x2x2x2x2x2x2x2x2x2x2x2x2 : Shape := ⟨24, ![2, 2, 2, 2, 2, 2, 2, 2, 2, 2, 2, 2, 2, 2, 2, 2, 2, 2, 2, 2, 2, 2, 2, 2]⟩
abbrev S2x2x2x2x2x2x2x2x2x2x2x2x2x2x2x2x2x2x2x2x2x2 : Shape := ⟨22, ![2, 2, 2, 2, 2, 2, 2, 2, 2, 2, 2, 2, 2, 2, 2, 2, 2, 2, 2, 2, 2, 2]⟩
abbrev S2x2x2x2x2x2x2x2x2x2x2x2x2x2x2x2x2x2x2x2 : Shape := ⟨20, ![2, 2, 2, 2, 2, 2, 2, 2, 2, 2, 2, 2, 2, 2, 2, 2, 2, 2, 2, 2]⟩
abbrev S2x2x2x2x2x2x2x2x2x2x2x2x2x2x2x2x2x2 : Shape := ⟨18, ![2, 2, 2, 2, 2, 2, 2, 2, 2, 2, 2, 2, 2, 2, 2, 2, 2, 2]⟩
abbrev S2x2x2x2x2x2x2x2x2x2x2x2x2x2x2x2 : Shape := ⟨16, ![2, 2, 2, 2, 2, 2, 2, 2, 2, 2, 2, 2, 2, 2, 2, 2]⟩
abbrev S2x2x2x2x2x2x2x2x2x2x2x2x2x2 : Shape := ⟨14, ![2, 2, 2, 2, 2, 2, 2, 2, 2, 2, 2, 2, 2, 2]⟩
abbrev S2x2x2x2x2x2x2x2x2x2x2x2 : Shape := ⟨12, ![2, 2, 2, 2, 2, 2, 2, 2, 2, 2, 2, 2]⟩
abbrev S2x2x2x2x2x2x2x2x2x2 : Shape := ⟨10, ![2, 2, 2, 2, 2, 2, 2, 2, 2, 2]⟩
abbrev S2x2x2x2x2x2x2x2 : Shape := ⟨8, ![2, 2, 2, 2, 2, 2, 2, 2]⟩
abbrev S2x2x2x2x2x2 : Shape := ⟨6, ![2, 2, 2, 2, 2, 2]⟩
abbrev S8x8 : Shape := ⟨2, ![8, 8]⟩

abbrev nBuf : Space → Nat
  | .hbm => 93
  | .vmem => 0
  | .smem => 0
  | _ => 0

abbrev bufTy : (tb : Table) → Fin (tcTables nBuf tb) → BufTy
  | .hbm, ⟨0, _⟩ => ⟨S1x1x8192x8192, .f32⟩
  | .hbm, ⟨1, _⟩ => ⟨S2x2x2x2x2x2x2x2x2x2x2x2x2x2x2x2x2x2x2x2x2x2x2x2x2x2, .f32⟩
  | .hbm, ⟨2, _⟩ => ⟨S2x2, .i32⟩
  | .hbm, ⟨3, _⟩ => ⟨S2x2, .i32⟩
  | .hbm, ⟨4, _⟩ => ⟨S2x2, .i1⟩
  | .hbm, ⟨5, _⟩ => ⟨S2x2x2x2x2x2x2x2x2x2x2x2x2x2x2x2x2x2x2x2x2x2x2x2x2x2, .i1⟩
  | .hbm, ⟨6, _⟩ => ⟨S_, .f32⟩
  | .hbm, ⟨7, _⟩ => ⟨S2x2x2x2x2x2x2x2x2x2x2x2x2x2x2x2x2x2x2x2x2x2x2x2x2x2, .f32⟩
  | .hbm, ⟨8, _⟩ => ⟨S2x2x2x2x2x2x2x2x2x2x2x2x2x2x2x2x2x2x2x2x2x2x2x2x2x2, .f32⟩
  | .hbm, ⟨9, _⟩ => ⟨S_, .f32⟩
  | .hbm, ⟨10, _⟩ => ⟨S2x2x2x2x2x2x2x2x2x2x2x2x2x2x2x2x2x2x2x2x2x2x2x2, .f32⟩
  | .hbm, ⟨11, _⟩ => ⟨S2x2, .i32⟩
  | .hbm, ⟨12, _⟩ => ⟨S2x2, .i32⟩
  | .hbm, ⟨13, _⟩ => ⟨S2x2, .i1⟩
  | .hbm, ⟨14, _⟩ => ⟨S2x2x2x2x2x2x2x2x2x2x2x2x2x2x2x2x2x2x2x2x2x2x2x2, .i1⟩
  | .hbm, ⟨15, _⟩ => ⟨S_, .f32⟩
  | .hbm, ⟨16, _⟩ => ⟨S2x2x2x2x2x2x2x2x2x2x2x2x2x2x2x2x2x2x2x2x2x2x2x2, .f32⟩
  | .hbm, ⟨17, _⟩ => ⟨S2x2x2x2x2x2x2x2x2x2x2x2x2x2x2x2x2x2x2x2x2x2x2x2, .f32⟩
  | .hbm, ⟨18, _⟩ => ⟨S_, .f32⟩
  | .hbm, ⟨19, _⟩ => ⟨S2x2x2x2x2x2x2x2x2x2x2x2x2x2x2x2x2x2x2x2x2x2, .f32⟩
  | .hbm, ⟨20, _⟩ => ⟨S2x2, .i32⟩
  | .hbm, ⟨21, _⟩ => ⟨S2x2, .i32⟩
  | .hbm, ⟨22, _⟩ => ⟨S2x2, .i1⟩
  | .hbm, ⟨23, _⟩ => ⟨S2x2x2x2x2x2x2x2x2x2x2x2x2x2x2x2x2x2x2x2x2x2, .i1⟩
  | .hbm, ⟨24, _⟩ => ⟨S_, .f32⟩
  | .hbm, ⟨25, _⟩ => ⟨S2x2x2x2x2x2x2x2x2x2x2x2x2x2x2x2x2x2x2x2x2x2, .f32⟩
  | .hbm, ⟨26, _⟩ => ⟨S2x2x2x2x2x2x2x2x2x2x2x2x2x2x2x2x2x2x2x2x2x2, .f32⟩
  | .hbm, ⟨27, _⟩ => ⟨S_, .f32⟩
  | .hbm, ⟨28, _⟩ => ⟨S2x2x2x2x2x2x2x2x2x2x2x2x2x2x2x2x2x2x2x2, .f32⟩
  | .hbm, ⟨29, _⟩ => ⟨S2x2, .i32⟩
  | .hbm, ⟨30, _⟩ => ⟨S2x2, .i32⟩
  | .hbm, ⟨31, _⟩ => ⟨S2x2, .i1⟩
  | .hbm, ⟨32, _⟩ => ⟨S2x2x2x2x2x2x2x2x2x2x2x2x2x2x2x2x2x2x2x2, .i1⟩
  | .hbm, ⟨33, _⟩ => ⟨S_, .f32⟩
  | .hbm, ⟨34, _⟩ => ⟨S2x2x2x2x2x2x2x2x2x2x2x2x2x2x2x2x2x2x2x2, .f32⟩
  | .hbm, ⟨35, _⟩ => ⟨S2x2x2x2x2x2x2x2x2x2x2x2x2x2x2x2x2x2x2x2, .f32⟩
  | .hbm, ⟨36, _⟩ => ⟨S_, .f32⟩
  | .hbm, ⟨37, _⟩ => ⟨S2x2x2x2x2x2x2x2x2x2x2x2x2x2x2x2x2x2, .f32⟩
  | .hbm, ⟨38, _⟩ => ⟨S2x2, .i32⟩
  | .hbm, ⟨39, _⟩ => ⟨S2x2, .i32⟩
  | .hbm, ⟨40, _⟩ => ⟨S2x2, .i1⟩
  | .hbm, ⟨41, _⟩ => ⟨S2x2x2x2x2x2x2x2x2x2x2x2x2x2x2x2x2x2, .i1⟩
  | .hbm, ⟨42, _⟩ => ⟨S_, .f32⟩
  | .hbm, ⟨43, _⟩ => ⟨S2x2x2x2x2x2x2x2x2x2x2x2x2x2x2x2x2x2, .f32⟩
  | .hbm, ⟨44, _⟩ => ⟨S2x2x2x2x2x2x2x2x2x2x2x2x2x2x2x2x2x2, .f32⟩
  | .hbm, ⟨45, _⟩ => ⟨S_, .f32⟩
  | .hbm, ⟨46, _⟩ => ⟨S2x2x2x2x2x2x2x2x2x2x2x2x2x2x2x2, .f32⟩
  | .hbm, ⟨47, _⟩ => ⟨S2x2, .i32⟩
  | .hbm, ⟨48, _⟩ => ⟨S2x2, .i32⟩
  | .hbm, ⟨49, _⟩ => ⟨S2x2, .i1⟩
  | .hbm, ⟨50, _⟩ => ⟨S2x2x2x2x2x2x2x2x2x2x2x2x2x2x2x2, .i1⟩
  | .hbm, ⟨51, _⟩ => ⟨S_, .f32⟩
  | .hbm, ⟨52, _⟩ => ⟨S2x2x2x2x2x2x2x2x2x2x2x2x2x2x2x2, .f32⟩
  | .hbm, ⟨53, _⟩ => ⟨S2x2x2x2x2x2x2x2x2x2x2x2x2x2x2x2, .f32⟩
  | .hbm, ⟨54, _⟩ => ⟨S_, .f32⟩
  | .hbm, ⟨55, _⟩ => ⟨S2x2x2x2x2x2x2x2x2x2x2x2x2x2, .f32⟩
  | .hbm, ⟨56, _⟩ => ⟨S2x2, .i32⟩
  | .hbm, ⟨57, _⟩ => ⟨S2x2, .i32⟩
  | .hbm, ⟨58, _⟩ => ⟨S2x2, .i1⟩
  | .hbm, ⟨59, _⟩ => ⟨S2x2x2x2x2x2x2x2x2x2x2x2x2x2, .i1⟩
  | .hbm, ⟨60, _⟩ => ⟨S_, .f32⟩
  | .hbm, ⟨61, _⟩ => ⟨S2x2x2x2x2x2x2x2x2x2x2x2x2x2, .f32⟩
  | .hbm, ⟨62, _⟩ => ⟨S2x2x2x2x2x2x2x2x2x2x2x2x2x2, .f32⟩
  | .hbm, ⟨63, _⟩ => ⟨S_, .f32⟩
  | .hbm, ⟨64, _⟩ => ⟨S2x2x2x2x2x2x2x2x2x2x2x2, .f32⟩
  | .hbm, ⟨65, _⟩ => ⟨S2x2, .i32⟩
  | .hbm, ⟨66, _⟩ => ⟨S2x2, .i32⟩
  | .hbm, ⟨67, _⟩ => ⟨S2x2, .i1⟩
  | .hbm, ⟨68, _⟩ => ⟨S2x2x2x2x2x2x2x2x2x2x2x2, .i1⟩
  | .hbm, ⟨69, _⟩ => ⟨S_, .f32⟩
  | .hbm, ⟨70, _⟩ => ⟨S2x2x2x2x2x2x2x2x2x2x2x2, .f32⟩
  | .hbm, ⟨71, _⟩ => ⟨S2x2x2x2x2x2x2x2x2x2x2x2, .f32⟩
  | .hbm, ⟨72, _⟩ => ⟨S_, .f32⟩
  | .hbm, ⟨73, _⟩ => ⟨S2x2x2x2x2x2x2x2x2x2, .f32⟩
  | .hbm, ⟨74, _⟩ => ⟨S2x2, .i32⟩
  | .hbm, ⟨75, _⟩ => ⟨S2x2, .i32⟩
  | .hbm, ⟨76, _⟩ => ⟨S2x2, .i1⟩
  | .hbm, ⟨77, _⟩ => ⟨S2x2x2x2x2x2x2x2x2x2, .i1⟩
  | .hbm, ⟨78, _⟩ => ⟨S_, .f32⟩
  | .hbm, ⟨79, _⟩ => ⟨S2x2x2x2x2x2x2x2x2x2, .f32⟩
  | .hbm, ⟨80, _⟩ => ⟨S2x2x2x2x2x2x2x2x2x2, .f32⟩
  | .hbm, ⟨81, _⟩ => ⟨S_, .f32⟩
  | .hbm, ⟨82, _⟩ => ⟨S2x2x2x2x2x2x2x2, .f32⟩
  | .hbm, ⟨83, _⟩ => ⟨S2x2, .i32⟩
  | .hbm, ⟨84, _⟩ => ⟨S2x2, .i32⟩
  | .hbm, ⟨85, _⟩ => ⟨S2x2, .i1⟩
  | .hbm, ⟨86, _⟩ => ⟨S2x2x2x2x2x2x2x2, .i1⟩
  | .hbm, ⟨87, _⟩ => ⟨S_, .f32⟩
  | .hbm, ⟨88, _⟩ => ⟨S2x2x2x2x2x2x2x2, .f32⟩
  | .hbm, ⟨89, _⟩ => ⟨S2x2x2x2x2x2x2x2, .f32⟩
  | .hbm, ⟨90, _⟩ => ⟨S_, .f32⟩
  | .hbm, ⟨91, _⟩ => ⟨S2x2x2x2x2x2, .f32⟩
  | .hbm, ⟨92, _⟩ => ⟨S8x8, .f32⟩
  | _, _ => ⟨S1x1x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_cst_6 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_7 : Ref sig .tc := ⟨.hbm, 42, rfl⟩
abbrev main_v33 : Ref sig .tc := ⟨.hbm, 43, rfl⟩
abbrev main_v34 : Ref sig .tc := ⟨.hbm, 44, rfl⟩
abbrev main_cst_8 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_9 : Ref sig .tc := ⟨.hbm, 51, rfl⟩
abbrev main_v40 : Ref sig .tc := ⟨.hbm, 52, rfl⟩
abbrev main_v41 : Ref sig .tc := ⟨.hbm, 53, rfl⟩
abbrev main_cst_10 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_11 : Ref sig .tc := ⟨.hbm, 60, rfl⟩
abbrev main_v47 : Ref sig .tc := ⟨.hbm, 61, rfl⟩
abbrev main_v48 : Ref sig .tc := ⟨.hbm, 62, rfl⟩
abbrev main_cst_12 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_13 : Ref sig .tc := ⟨.hbm, 69, rfl⟩
abbrev main_v54 : Ref sig .tc := ⟨.hbm, 70, rfl⟩
abbrev main_v55 : Ref sig .tc := ⟨.hbm, 71, rfl⟩
abbrev main_cst_14 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_15 : Ref sig .tc := ⟨.hbm, 78, rfl⟩
abbrev main_v61 : Ref sig .tc := ⟨.hbm, 79, rfl⟩
abbrev main_v62 : Ref sig .tc := ⟨.hbm, 80, rfl⟩
abbrev main_cst_16 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_17 : Ref sig .tc := ⟨.hbm, 87, rfl⟩
abbrev main_v68 : Ref sig .tc := ⟨.hbm, 88, rfl⟩
abbrev main_v69 : Ref sig .tc := ⟨.hbm, 89, rfl⟩
abbrev main_cst_18 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]

class Facts₀ : Prop where
  shapeCasts_S1x1x8192x8192_S2x2x2x2x2x2x2x2x2x2x2x2x2x2x2x2x2x2x2x2x2x2x2x2x2x2 : S1x1x8192x8192.ShapeCasts S2x2x2x2x2x2x2x2x2x2x2x2x2x2x2x2x2x2x2x2x2x2x2x2x2x2
  bcast_S2x2_S2x2x2x2x2x2x2x2x2x2x2x2x2x2x2x2x2x2x2x2x2x2x2x2x2x2_0_13 : S2x2.BroadcastsInDim S2x2x2x2x2x2x2x2x2x2x2x2x2x2x2x2x2x2x2x2x2x2x2x2x2x2 (![0, 13] : Fin 2 → Fin S2x2x2x2x2x2x2x2x2x2x2x2x2x2x2x2x2x2x2x2x2x2x2x2x2x2.rank)
  bcast_S_S2x2x2x2x2x2x2x2x2x2x2x2x2x2x2x2x2x2x2x2x2x2x2x2x2x2 : S_.BroadcastsInDim S2x2x2x2x2x2x2x2x2x2x2x2x2x2x2x2x2x2x2x2x2x2x2x2x2x2 (![] : Fin 0 → Fin S2x2x2x2x2x2x2x2x2x2x2x2x2x2x2x2x2x2x2x2x2x2x2x2x2x2.rank)
  reducesTo_S2x2x2x2x2x2x2x2x2x2x2x2x2x2x2x2x2x2x2x2x2x2x2x2x2x2_S2x2x2x2x2x2x2x2x2x2x2x2x2x2x2x2x2x2x2x2x2x2x2x2_d0_13 : S2x2x2x2x2x2x2x2x2x2x2x2x2x2x2x2x2x2x2x2x2x2x2x2x2x2.ReducesTo [0, 13] S2x2x2x2x2x2x2x2x2x2x2x2x2x2x2x2x2x2x2x2x2x2x2x2
  h_S_ : 0 < S_.numel
  bcast_S2x2_S2x2x2x2x2x2x2x2x2x2x2x2x2x2x2x2x2x2x2x2x2x2x2x2_0_12 : S2x2.BroadcastsInDim S2x2x2x2x2x2x2x2x2x2x2x2x2x2x2x2x2x2x2x2x2x2x2x2 (![0, 12] : Fin 2 → Fin S2x2x2x2x2x2x2x2x2x2x2x2x2x2x2x2x2x2x2x2x2x2x2x2.rank)
  bcast_S_S2x2x2x2x2x2x2x2x2x2x2x2x2x2x2x2x2x2x2x2x2x2x2x2 : S_.BroadcastsInDim S2x2x2x2x2x2x2x2x2x2x2x2x2x2x2x2x2x2x2x2x2x2x2x2 (![] : Fin 0 → Fin S2x2x2x2x2x2x2x2x2x2x2x2x2x2x2x2x2x2x2x2x2x2x2x2.rank)
  reducesTo_S2x2x2x2x2x2x2x2x2x2x2x2x2x2x2x2x2x2x2x2x2x2x2x2_S2x2x2x2x2x2x2x2x2x2x2x2x2x2x2x2x2x2x2x2x2x2_d0_12 : S2x2x2x2x2x2x2x2x2x2x2x2x2x2x2x2x2x2x2x2x2x2x2x2.ReducesTo [0, 12] S2x2x2x2x2x2x2x2x2x2x2x2x2x2x2x2x2x2x2x2x2x2
  bcast_S2x2_S2x2x2x2x2x2x2x2x2x2x2x2x2x2x2x2x2x2x2x2x2x2_1_12 : S2x2.BroadcastsInDim S2x2x2x2x2x2x2x2x2x2x2x2x2x2x2x2x2x2x2x2x2x2 (![1, 12] : Fin 2 → Fin S2x2x2x2x2x2x2x2x2x2x2x2x2x2x2x2x2x2x2x2x2x2.rank)
  bcast_S_S2x2x2x2x2x2x2x2x2x2x2x2x2x2x2x2x2x2x2x2x2x2 : S_.BroadcastsInDim S2x2x2x2x2x2x2x2x2x2x2x2x2x2x2x2x2x2x2x2x2x2 (![] : Fin 0 → Fin S2x2x2x2x2x2x2x2x2x2x2x2x2x2x2x2x2x2x2x2x2x2.rank)
  reducesTo_S2x2x2x2x2x2x2x2x2x2x2x2x2x2x2x2x2x2x2x2x2x2_S2x2x2x2x2x2x2x2x2x2x2x2x2x2x2x2x2x2x2x2_d1_12 : S2x2x2x2x2x2x2x2x2x2x2x2x2x2x2x2x2x2x2x2x2x2.ReducesTo [1, 12] S2x2x2x2x2x2x2x2x2x2x2x2x2x2x2x2x2x2x2x2
  bcast_S2x2_S2x2x2x2x2x2x2x2x2x2x2x2x2x2x2x2x2x2x2x2_1_11 : S2x2.BroadcastsInDim S2x2x2x2x2x2x2x2x2x2x2x2x2x2x2x2x2x2x2x2 (![1, 11] : Fin 2 → Fin S2x2x2x2x2x2x2x2x2x2x2x2x2x2x2x2x2x2x2x2.rank)
  bcast_S_S2x2x2x2x2x2x2x2x2x2x2x2x2x2x2x2x2x2x2x2 : S_.BroadcastsInDim S2x2x2x2x2x2x2x2x2x2x2x2x2x2x2x2x2x2x2x2 (![] : Fin 0 → Fin S2x2x2x2x2x2x2x2x2x2x2x2x2x2x2x2x2x2x2x2.rank)
  reducesTo_S2x2x2x2x2x2x2x2x2x2x2x2x2x2x2x2x2x2x2x2_S2x2x2x2x2x2x2x2x2x2x2x2x2x2x2x2x2x2_d1_11 : S2x2x2x2x2x2x2x2x2x2x2x2x2x2x2x2x2x2x2x2.ReducesTo [1, 11] S2x2x2x2x2x2x2x2x2x2x2x2x2x2x2x2x2x2
  bcast_S2x2_S2x2x2x2x2x2x2x2x2x2x2x2x2x2x2x2x2x2_1_10 : S2x2.BroadcastsInDim S2x2x2x2x2x2x2x2x2x2x2x2x2x2x2x2x2x2 (![1, 10] : Fin 2 → Fin S2x2x2x2x2x2x2x2x2x2x2x2x2x2x2x2x2x2.rank)
  bcast_S_S2x2x2x2x2x2x2x2x2x2x2x2x2x2x2x2x2x2 : S_.BroadcastsInDim S2x2x2x2x2x2x2x2x2x2x2x2x2x2x2x2x2x2 (![] : Fin 0 → Fin S2x2x2x2x2x2x2x2x2x2x2x2x2x2x2x2x2x2.rank)
  reducesTo_S2x2x2x2x2x2x2x2x2x2x2x2x2x2x2x2x2x2_S2x2x2x2x2x2x2x2x2x2x2x2x2x2x2x2_d1_10 : S2x2x2x2x2x2x2x2x2x2x2x2x2x2x2x2x2x2.ReducesTo [1, 10] S2x2x2x2x2x2x2x2x2x2x2x2x2x2x2x2
  bcast_S2x2_S2x2x2x2x2x2x2x2x2x2x2x2x2x2x2x2_2_10 : S2x2.BroadcastsInDim S2x2x2x2x2x2x2x2x2x2x2x2x2x2x2x2 (![2, 10] : Fin 2 → Fin S2x2x2x2x2x2x2x2x2x2x2x2x2x2x2x2.rank)
  bcast_S_S2x2x2x2x2x2x2x2x2x2x2x2x2x2x2x2 : S_.BroadcastsInDim S2x2x2x2x2x2x2x2x2x2x2x2x2x2x2x2 (![] : Fin 0 → Fin S2x2x2x2x2x2x2x2x2x2x2x2x2x2x2x2.rank)
  reducesTo_S2x2x2x2x2x2x2x2x2x2x2x2x2x2x2x2_S2x2x2x2x2x2x2x2x2x2x2x2x2x2_d2_10 : S2x2x2x2x2x2x2x2x2x2x2x2x2x2x2x2.ReducesTo [2, 10] S2x2x2x2x2x2x2x2x2x2x2x2x2x2
  bcast_S2x2_S2x2x2x2x2x2x2x2x2x2x2x2x2x2_2_9 : S2x2.BroadcastsInDim S2x2x2x2x2x2x2x2x2x2x2x2x2x2 (![2, 9] : Fin 2 → Fin S2x2x2x2x2x2x2x2x2x2x2x2x2x2.rank)
  bcast_S_S2x2x2x2x2x2x2x2x2x2x2x2x2x2 : S_.BroadcastsInDim S2x2x2x2x2x2x2x2x2x2x2x2x2x2 (![] : Fin 0 → Fin S2x2x2x2x2x2x2x2x2x2x2x2x2x2.rank)
  reducesTo_S2x2x2x2x2x2x2x2x2x2x2x2x2x2_S2x2x2x2x2x2x2x2x2x2x2x2_d2_9 : S2x2x2x2x2x2x2x2x2x2x2x2x2x2.ReducesTo [2, 9] S2x2x2x2x2x2x2x2x2x2x2x2
  bcast_S2x2_S2x2x2x2x2x2x2x2x2x2x2x2_2_8 : S2x2.BroadcastsInDim S2x2x2x2x2x2x2x2x2x2x2x2 (![2, 8] : Fin 2 → Fin S2x2x2x2x2x2x2x2x2x2x2x2.rank)
  bcast_S_S2x2x2x2x2x2x2x2x2x2x2x2 : S_.BroadcastsInDim S2x2x2x2x2x2x2x2x2x2x2x2 (![] : Fin 0 → Fin S2x2x2x2x2x2x2x2x2x2x2x2.rank)
  reducesTo_S2x2x2x2x2x2x2x2x2x2x2x2_S2x2x2x2x2x2x2x2x2x2_d2_8 : S2x2x2x2x2x2x2x2x2x2x2x2.ReducesTo [2, 8] S2x2x2x2x2x2x2x2x2x2
  bcast_S2x2_S2x2x2x2x2x2x2x2x2x2_3_8 : S2x2.BroadcastsInDim S2x2x2x2x2x2x2x2x2x2 (![3, 8] : Fin 2 → Fin S2x2x2x2x2x2x2x2x2x2.rank)
  bcast_S_S2x2x2x2x2x2x2x2x2x2 : S_.BroadcastsInDim S2x2x2x2x2x2x2x2x2x2 (![] : Fin 0 → Fin S2x2x2x2x2x2x2x2x2x2.rank)
  reducesTo_S2x2x2x2x2x2x2x2x2x2_S2x2x2x2x2x2x2x2_d3_8 : S2x2x2x2x2x2x2x2x2x2.ReducesTo [3, 8] S2x2x2x2x2x2x2x2
  bcast_S2x2_S2x2x2x2x2x2x2x2_3_7 : S2x2.BroadcastsInDim S2x2x2x2x2x2x2x2 (![3, 7] : Fin 2 → Fin S2x2x2x2x2x2x2x2.rank)
  bcast_S_S2x2x2x2x2x2x2x2 : S_.BroadcastsInDim S2x2x2x2x2x2x2x2 (![] : Fin 0 → Fin S2x2x2x2x2x2x2x2.rank)
  reducesTo_S2x2x2x2x2x2x2x2_S2x2x2x2x2x2_d3_7 : S2x2x2x2x2x2x2x2.ReducesTo [3, 7] S2x2x2x2x2x2
  shapeCasts_S2x2x2x2x2x2_S8x8 : S2x2x2x2x2x2.ShapeCasts S8x8

variable [Facts₀]

class Facts : Prop extends Facts₀ where

variable [Facts]
-- ==== Proof.FrameK.Around.lean ====
/-
  The program is: one reshape of the argument into an 8192 × 8192 array, one pipelined region over a 4 × 4 grid
  (row tile rt, diagonal block d) that reads block (4d + rt, d) of that array and accumulates it into output block
  (rt, 0) of a 2048 × 2048 array, and 72 further array operations that only read that result and write fresh
  buffers. This module says what the region finds on entry (the argument reshaped, everything else as launched),
  that the later operations stay inside the buffers the region leaves alone, allocate nothing and write neither of the
  region's two arrays, that the argument is written by nobody, and when the body's reset branch is taken: exactly
  at the points whose position is a multiple of four (d = 0).
-/
import proofs.«134312_j28183575396357_1_alg».proof.Proof.Gen.Kernel.Launch
import proofs.«134312_j28183575396357_1_alg».proof.Proof.Gen.Kernel.Skeleton
import proofs.«134312_j28183575396357_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds, and what follows it -/

/-- Core `c`'s buffers when the region is entered: the launch contents after the one reshape before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

set_option maxHeartbeats 2000000 in
theorem hostOps1_fresh : (hostOps1 : List (HloOp τ sig (Elt F))).Forall fun op => op.fresh = ∅ := by
  simp only [List.Forall]; repeat' constructor

set_option maxHeartbeats 8000000 in
/-- The program is the reshape, the region, then the 72 later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

set_option maxHeartbeats 8000000 in
/-- The later operations touch only the region's two arrays and the buffers the region never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

set_option maxHeartbeats 8000000 in
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 4000000 in
/-- Each writes only its own result buffer, which is neither the reshaped argument nor the region's result. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

set_option maxHeartbeats 8000000 in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- The reshape before the region writes its own result, not the argument: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- None of the 72 later operations writes the argument either. -/
theorem hostOps1_not_arg : ∀ op ∈ (List.flatten [hostOps1] : List (HloOp τ sig (Elt F))), Proc.devRef .tc main_arg0 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
/-- So after the whole program the argument holds what it held at launch, whatever the region's proof data. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ hostOps1_not_arg,
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry one and whose body leaves the block in place: the window is fetched at every point and never cut. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## From a run of the whole program to "the argument ends unchanged" -/

set_option maxHeartbeats 8000000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (W_main_arg0 m dats c)) h

/-! ## The body's one branch -/

/-- The condition of the body's reset branch, from the grid coordinates: the diagonal-block coordinate is zero. -/
abbrev cond0_0 (i : grid0.Coords) : Prop := (Scalar.cmpi .ne (Scalar.extui (Scalar.cmpi .eq (BitVec.ofNat 32 (i 1).val) 0#32)) 0#32) = 1#1
/-- It holds at the points whose position is a multiple of four. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs the body is called on -/

/-- One staging buffer of the output window, through which its contents are stated. -/
abbrev VO0_1 : View sig .tc .vmem S512x2048 .f32 := (Memref.whole cc0_stg1_0 : Memref sig .tc .vmem S512x2048 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)

end Cert.Kernel.Frame

end
-- ==== Proof.FrameK.ResetRun.lean ====
/-
  The kernel body at a point where the diagonal-block coordinate is zero: the output's staging buffer, whatever it
  held, is overwritten with zeros and then with zeros plus the input block; the input's staging buffer is only read.
-/
import proofs.«134312_j28183575396357_1_alg».proof.Proof.FrameK.Around

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref when the reset branch is taken, as the list of stored
    pieces (last first), with the proof that from the input's buffer at `x0` and the output's at anything the body
    runs to the continuation holding the input's buffer unchanged and the output's with those pieces written. -/
noncomputable def kernelRun0_A (c : Dev nD) (i : grid0.Coords) (arg2 : Memref sig .tc .vmem S512x2048 .f32) (harg2 : arg2.IsWhole) (arg3 : Memref sig .tc .vmem S512x2048 .f32) (harg3 : arg3.IsWhole) (hc0 : cond0_0 i)
    (x0 : Vec F S512x2048 .f32) :
    { L1 : List (View.Piece (Elt F) S512x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__fold1_kernel i arg2 harg2 arg3 harg3) K } := by
  refine ⟨?_, fun E K => ?run⟩
  case run =>
    simp only [cc0__fold1_kernel_eq_skeleton]; unfold cc0__fold1_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.Frame

end
-- ==== Proof.FrameK.CarryRun.lean ====
/-
  The kernel body at a point where the diagonal-block coordinate is not zero: the output's staging buffer, holding
  the running sum `xo1`, is overwritten with that sum plus the input block; the input's staging buffer is only read.
-/
import proofs.«134312_j28183575396357_1_alg».proof.Proof.FrameK.ResetRun

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output's staging memref when the reset branch is not taken, as a list of
    pieces, with the proof that from the input's buffer at `x0` and the output's at `xo1` the body runs to the
    continuation holding the input's buffer unchanged and the output's with those pieces written. -/
noncomputable def kernelRun0_B (c : Dev nD) (i : grid0.Coords) (arg2 : Memref sig .tc .vmem S512x2048 .f32) (harg2 : arg2.IsWhole) (arg3 : Memref sig .tc .vmem S512x2048 .f32) (harg3 : arg3.IsWhole) (hc0 : ¬cond0_0 i)
    (x0 : Vec F S512x2048 .f32) (xo1 : Vec F S512x2048 .f32) :
    { L1 : List (View.Piece (Elt F) S512x2048 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__fold1_kernel i arg2 harg2 arg3 harg3) K } := by
  refine ⟨?_, fun E K => ?run⟩
  case run =>
    simp only [cc0__fold1_kernel_eq_skeleton]; unfold cc0__fold1_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Frame

end
-- ==== Proof.FrameK.Frame.lean ====
/-
  The frame of the whole program. Each case's stored pieces cover the output block, so what the case leaves in the
  staging buffer is a value; `outsAt0` is that value point by point — reset at the points that are multiples of
  four, carried from the point before otherwise (the block is written back only at points ≡ 3 mod 4, so between
  a reset and the next write-back the staging buffer keeps the running sum). With these as the proof data the
  body meets its obligation at every point, the region runs, the 72 later operations run after it, and the argument
  is written by nobody.
-/
import proofs.«134312_j28183575396357_1_alg».proof.Proof.FrameK.CarryRun

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case's pieces tile the output block, so they cover it. -/
theorem cover0_A_1 (c : Dev nD) (i : grid0.Coords) (arg2 : Memref sig .tc .vmem S512x2048 .f32) (harg2 : arg2.IsWhole) (arg3 : Memref sig .tc .vmem S512x2048 .f32) (harg3 : arg3.IsWhole) (hc0 : cond0_0 i)
    (x0 : Vec F S512x2048 .f32) (y : S512x2048.Idx) :
    ∃ pc ∈ (kernelRun0_A c i arg2 harg2 arg3 harg3 hc0 x0).1, y ∈ pc.1.set :=
  View.cover_of_tiledL (kernelRun0_A c i arg2 harg2 arg3 harg3 hc0 x0).1 S512x2048.size (by sl_kernel_rfl) y

/-- What the reset case leaves in the output's staging buffer: its pieces read back. -/
def out0_A_1 (c : Dev nD) (i : grid0.Coords) (arg2 : Memref sig .tc .vmem S512x2048 .f32) (harg2 : arg2.IsWhole) (arg3 : Memref sig .tc .vmem S512x2048 .f32) (harg3 : arg3.IsWhole) (hc0 : cond0_0 i)
    (x0 : Vec F S512x2048 .f32) : Vec F S512x2048 .f32 :=
  VO0_1.read (Elt F) (VO0_1.writes (Elt F) VO0_1.junk (kernelRun0_A c i arg2 harg2 arg3 harg3 hc0 x0).1)

/-- The carrying case's piece is the whole output block. -/
theorem cover0_B_1 (c : Dev nD) (i : grid0.Coords) (arg2 : Memref sig .tc .vmem S512x2048 .f32) (harg2 : arg2.IsWhole) (arg3 : Memref sig .tc .vmem S512x2048 .f32) (harg3 : arg3.IsWhole) (hc0 : ¬cond0_0 i)
    (x0 : Vec F S512x2048 .f32) (xo1 : Vec F S512x2048 .f32) (y : S512x2048.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S512x2048.size (by sl_kernel_rfl) y

/-- What the carrying case leaves in the output's staging buffer. -/
def out0_B_1 (c : Dev nD) (i : grid0.Coords) (arg2 : Memref sig .tc .vmem S512x2048 .f32) (harg2 : arg2.IsWhole) (arg3 : Memref sig .tc .vmem S512x2048 .f32) (harg3 : arg3.IsWhole) (hc0 : ¬cond0_0 i)
    (x0 : Vec F S512x2048 .f32) (xo1 : Vec F S512x2048 .f32) : Vec F S512x2048 .f32 :=
  VO0_1.read (Elt F) (VO0_1.writes (Elt F) VO0_1.junk (kernelRun0_B c i arg2 harg2 arg3 harg3 hc0 x0 xo1).1)

/-! ## What the output's staging buffer holds after each point -/

/-- The accumulation: after the body at position `n`, the reset case's value when `n` is a multiple of four, else the
    carrying case's value over what position `n - 1` left. -/
def outsAt0 (c : Dev nD) : (n : ℕ) → n < cfg0.N → Vec F S512x2048 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk m c 0 ⟨0, hn⟩)
  | n + 1, hn =>
    if h0 : (n + 1) % 4 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk m c 0 ⟨n + 1, hn⟩) (outsAt0 c n (Nat.lt_of_succ_lt hn))

theorem outsAt0_A (c : Dev nD) (t : Fin cfg0.N) (h0 : t.val % 4 = 0) :
    outsAt0 m c t.val t.isLt = out0_A_1 c (grid0.coords t) (ms0_0 t) (hs0_0 t) (ms0_1 t) (hs0_1 t) ((hcond0_0 t).mpr h0) (iblk m c 0 t) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = out0_B_1 c (grid0.coords t) (ms0_0 t) (hs0_0 t) (ms0_1 t) (hs0_1 t) (fun h => h0 ((hcond0_0 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` the input's buffer at its block and the output's
    at `outsAt0`; nothing kept between points besides; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d

/-- At a carrying point the output's current staging buffer holds what the body left at the point before: the point
    is not the first and the buffer was not written back in between. -/
theorem before0_1_B (c : Dev nD) (t : Fin cfg0.N) (h0 : ¬t.val % 4 = 0) (d) :
    (dats m 0 c).before 1 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point: the input's memref holds its block; the position decides the case; at a carrying point
    the output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 16 := lt_of_lt_of_eq t.isLt (show cfg0.N = 16 from N_0)
  by_cases h0 : t.val % 4 = 0
  · rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of the program terminates, each of the region's arrays ending at what its write-backs
    leave and every other buffer at what the 72 later operations compute from the region's exit. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

set_option maxHeartbeats 8000000 in
/-- The program runs and its argument ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Frame

end
-- ==== Proof.FrameKI.Around.lean ====
/-
  The program is: one reshape of the argument into an 8192 × 8192 array, one pipelined region over a 4 × 4 grid
  (row tile rt, diagonal block d) that reads block (4d + rt, d) of that array and accumulates it into output block
  (rt, 0) of a 2048 × 2048 array, and 72 further array operations that only read that result and write fresh
  buffers. This module says what the region finds on entry (the argument reshaped, everything else as launched),
  that the later operations stay inside the buffers the region leaves alone, allocate nothing and write neither of the
  region's two arrays, that the argument is written by nobody, and when the body's reset branch is taken: exactly
  at the points whose position is a multiple of four (d = 0).
-/
import proofs.«134312_j28183575396357_1_alg».proof.Proof.Gen.KernelIdeal.Launch
import proofs.«134312_j28183575396357_1_alg».proof.Proof.Gen.KernelIdeal.Skeleton
import proofs.«134312_j28183575396357_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds, and what follows it -/

/-- Core `c`'s buffers when the region is entered: the launch contents after the one reshape before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

set_option maxHeartbeats 2000000 in
theorem hostOps1_fresh : (hostOps1 : List (HloOp τ sig (Elt F))).Forall fun op => op.fresh = ∅ := by
  simp only [List.Forall]; repeat' constructor

set_option maxHeartbeats 8000000 in
/-- The program is the reshape, the region, then the 72 later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

set_option maxHeartbeats 8000000 in
/-- The later operations touch only the region's two arrays and the buffers the region never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

set_option maxHeartbeats 8000000 in
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 4000000 in
/-- Each writes only its own result buffer, which is neither the reshaped argument nor the region's result. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

set_option maxHeartbeats 8000000 in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- The reshape before the region writes its own result, not the argument: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- None of the 72 later operations writes the argument either. -/
theorem hostOps1_not_arg : ∀ op ∈ (List.flatten [hostOps1] : List (HloOp τ sig (Elt F))), Proc.devRef .tc main_arg0 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
/-- So after the whole program the argument holds what it held at launch, whatever the region's proof data. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ hostOps1_not_arg,
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry one and whose body leaves the block in place: the window is fetched at every point and never cut. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## From a run of the whole program to "the argument ends unchanged" -/

set_option maxHeartbeats 8000000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (W_main_arg0 m dats c)) h

/-! ## The body's one branch -/

/-- The condition of the body's reset branch, from the grid coordinates: the diagonal-block coordinate is zero. -/
abbrev cond0_0 (i : grid0.Coords) : Prop := (Scalar.cmpi .ne (Scalar.extui (Scalar.cmpi .eq (BitVec.ofNat 32 (i 1).val) 0#32)) 0#32) = 1#1
/-- It holds at the points whose position is a multiple of four. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs the body is called on -/

/-- One staging buffer of the output window, through which its contents are stated. -/
abbrev VO0_1 : View sig .tc .vmem S512x2048 .f32 := (Memref.whole cc0_stg1_0 : Memref sig .tc .vmem S512x2048 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)

end Cert.KernelIdeal.Frame

end
-- ==== Proof.FrameKI.ResetRun.lean ====
/-
  The kernel body at a point where the diagonal-block coordinate is zero: the output's staging buffer, whatever it
  held, is overwritten with zeros and then with zeros plus the input block; the input's staging buffer is only read.
-/
import proofs.«134312_j28183575396357_1_alg».proof.Proof.FrameKI.Around

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref when the reset branch is taken, as the list of stored
    pieces (last first), with the proof that from the input's buffer at `x0` and the output's at anything the body
    runs to the continuation holding the input's buffer unchanged and the output's with those pieces written. -/
noncomputable def kernelRun0_A (c : Dev nD) (i : grid0.Coords) (arg2 : Memref sig .tc .vmem S512x2048 .f32) (harg2 : arg2.IsWhole) (arg3 : Memref sig .tc .vmem S512x2048 .f32) (harg3 : arg3.IsWhole) (hc0 : cond0_0 i)
    (x0 : Vec F S512x2048 .f32) :
    { L1 : List (View.Piece (Elt F) S512x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__fold1_kernel i arg2 harg2 arg3 harg3) K } := by
  refine ⟨?_, fun E K => ?run⟩
  case run =>
    simp only [cc0__fold1_kernel_eq_skeleton]; unfold cc0__fold1_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.Frame

end
-- ==== Proof.FrameKI.CarryRun.lean ====
/-
  The kernel body at a point where the diagonal-block coordinate is not zero: the output's staging buffer, holding
  the running sum `xo1`, is overwritten with that sum plus the input block; the input's staging buffer is only read.
-/
import proofs.«134312_j28183575396357_1_alg».proof.Proof.FrameKI.ResetRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output's staging memref when the reset branch is not taken, as a list of
    pieces, with the proof that from the input's buffer at `x0` and the output's at `xo1` the body runs to the
    continuation holding the input's buffer unchanged and the output's with those pieces written. -/
noncomputable def kernelRun0_B (c : Dev nD) (i : grid0.Coords) (arg2 : Memref sig .tc .vmem S512x2048 .f32) (harg2 : arg2.IsWhole) (arg3 : Memref sig .tc .vmem S512x2048 .f32) (harg3 : arg3.IsWhole) (hc0 : ¬cond0_0 i)
    (x0 : Vec F S512x2048 .f32) (xo1 : Vec F S512x2048 .f32) :
    { L1 : List (View.Piece (Elt F) S512x2048 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__fold1_kernel i arg2 harg2 arg3 harg3) K } := by
  refine ⟨?_, fun E K => ?run⟩
  case run =>
    simp only [cc0__fold1_kernel_eq_skeleton]; unfold cc0__fold1_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Frame

end
-- ==== Proof.FrameKI.Frame.lean ====
/-
  The frame of the whole program. Each case's stored pieces cover the output block, so what the case leaves in the
  staging buffer is a value; `outsAt0` is that value point by point — reset at the points that are multiples of
  four, carried from the point before otherwise (the block is written back only at points ≡ 3 mod 4, so between
  a reset and the next write-back the staging buffer keeps the running sum). With these as the proof data the
  body meets its obligation at every point, the region runs, the 72 later operations run after it, and the argument
  is written by nobody.
-/
import proofs.«134312_j28183575396357_1_alg».proof.Proof.FrameKI.CarryRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case's pieces tile the output block, so they cover it. -/
theorem cover0_A_1 (c : Dev nD) (i : grid0.Coords) (arg2 : Memref sig .tc .vmem S512x2048 .f32) (harg2 : arg2.IsWhole) (arg3 : Memref sig .tc .vmem S512x2048 .f32) (harg3 : arg3.IsWhole) (hc0 : cond0_0 i)
    (x0 : Vec F S512x2048 .f32) (y : S512x2048.Idx) :
    ∃ pc ∈ (kernelRun0_A c i arg2 harg2 arg3 harg3 hc0 x0).1, y ∈ pc.1.set :=
  View.cover_of_tiledL (kernelRun0_A c i arg2 harg2 arg3 harg3 hc0 x0).1 S512x2048.size (by sl_kernel_rfl) y

/-- What the reset case leaves in the output's staging buffer: its pieces read back. -/
def out0_A_1 (c : Dev nD) (i : grid0.Coords) (arg2 : Memref sig .tc .vmem S512x2048 .f32) (harg2 : arg2.IsWhole) (arg3 : Memref sig .tc .vmem S512x2048 .f32) (harg3 : arg3.IsWhole) (hc0 : cond0_0 i)
    (x0 : Vec F S512x2048 .f32) : Vec F S512x2048 .f32 :=
  VO0_1.read (Elt F) (VO0_1.writes (Elt F) VO0_1.junk (kernelRun0_A c i arg2 harg2 arg3 harg3 hc0 x0).1)

/-- The carrying case's piece is the whole output block. -/
theorem cover0_B_1 (c : Dev nD) (i : grid0.Coords) (arg2 : Memref sig .tc .vmem S512x2048 .f32) (harg2 : arg2.IsWhole) (arg3 : Memref sig .tc .vmem S512x2048 .f32) (harg3 : arg3.IsWhole) (hc0 : ¬cond0_0 i)
    (x0 : Vec F S512x2048 .f32) (xo1 : Vec F S512x2048 .f32) (y : S512x2048.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S512x2048.size (by sl_kernel_rfl) y

/-- What the carrying case leaves in the output's staging buffer. -/
def out0_B_1 (c : Dev nD) (i : grid0.Coords) (arg2 : Memref sig .tc .vmem S512x2048 .f32) (harg2 : arg2.IsWhole) (arg3 : Memref sig .tc .vmem S512x2048 .f32) (harg3 : arg3.IsWhole) (hc0 : ¬cond0_0 i)
    (x0 : Vec F S512x2048 .f32) (xo1 : Vec F S512x2048 .f32) : Vec F S512x2048 .f32 :=
  VO0_1.read (Elt F) (VO0_1.writes (Elt F) VO0_1.junk (kernelRun0_B c i arg2 harg2 arg3 harg3 hc0 x0 xo1).1)

/-! ## What the output's staging buffer holds after each point -/

/-- The accumulation: after the body at position `n`, the reset case's value when `n` is a multiple of four, else the
    carrying case's value over what position `n - 1` left. -/
def outsAt0 (c : Dev nD) : (n : ℕ) → n < cfg0.N → Vec F S512x2048 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk m c 0 ⟨0, hn⟩)
  | n + 1, hn =>
    if h0 : (n + 1) % 4 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk m c 0 ⟨n + 1, hn⟩) (outsAt0 c n (Nat.lt_of_succ_lt hn))

theorem outsAt0_A (c : Dev nD) (t : Fin cfg0.N) (h0 : t.val % 4 = 0) :
    outsAt0 m c t.val t.isLt = out0_A_1 c (grid0.coords t) (ms0_0 t) (hs0_0 t) (ms0_1 t) (hs0_1 t) ((hcond0_0 t).mpr h0) (iblk m c 0 t) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = out0_B_1 c (grid0.coords t) (ms0_0 t) (hs0_0 t) (ms0_1 t) (hs0_1 t) (fun h => h0 ((hcond0_0 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` the input's buffer at its block and the output's
    at `outsAt0`; nothing kept between points besides; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d

/-- At a carrying point the output's current staging buffer holds what the body left at the point before: the point
    is not the first and the buffer was not written back in between. -/
theorem before0_1_B (c : Dev nD) (t : Fin cfg0.N) (h0 : ¬t.val % 4 = 0) (d) :
    (dats m 0 c).before 1 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point: the input's memref holds its block; the position decides the case; at a carrying point
    the output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 16 := lt_of_lt_of_eq t.isLt (show cfg0.N = 16 from N_0)
  by_cases h0 : t.val % 4 = 0
  · rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of the program terminates, each of the region's arrays ending at what its write-backs
    leave and every other buffer at what the 72 later operations compute from the region's exit. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

set_option maxHeartbeats 8000000 in
/-- The program runs and its argument ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Frame

end
-- ==== Proof.Spec.lean ====
/-
  The partial trace of a 13-qubit density matrix keeping qubits 3, 7 and 11 (qubit 1 the most significant bit
  of the 8192 row and column positions): entry (a, b) of the 8 × 8 result is the sum, over the 2^10 settings
  of the ten traced bits, of the entry whose row carries a's three bits at positions 10, 6 and 2 and the traced
  bits elsewhere, and whose column carries b's three bits and THE SAME traced bits.
  Two spellings of that sum:
  * by groups of consecutive traced bits, innermost the two top bits (four diagonal 2048-blocks), then bits
    4–6 (eight diagonal 128-strips inside each 1024-half), then bits 8–10, then bits 12–13 — each step maps a
    square matrix to a smaller one (`diag4`, `strips8`, `cells8`, `pairs4`);
  * bit by bit, one binary sum per traced bit, qubit 1 innermost and qubit 13 outermost (`bitTrace`).
  Addition on the extended reals is commutative and associative, so the two are equal with no finiteness
  hypothesis (`groups_eq_bits`, proved in its own module).
-/
import Idealize.ShloMosaic.Lib.ValueIdx
import Idealize.ShloMosaic.PureOps.Ideal

noncomputable section

namespace Cert.PartialTrace

open Idealize.ShloMosaic Idealize.ShloMosaic.ValueIdx

/-- A square matrix of extended reals, indexed as a rank-2 array. -/
abbrev Mat (n : Nat) : Type := (⟨2, ![n, n]⟩ : Shape).Idx → EReal

/-- The density matrix as the program receives it: two leading unit axes. -/
abbrev Arg : Type := (⟨4, ![1, 1, 8192, 8192]⟩ : Shape).Idx → EReal

/-- The argument without its unit axes. -/
def flat (x : Arg) : Mat 8192 := fun j => x (ix4 (0 : Fin 1) (0 : Fin 1) (j 0) (j 1))

/-- Bits 1–2 traced: the sum of the four diagonal 2048 × 2048 blocks. -/
def diag4 (X : Mat 8192) : Mat 2048 := fun j =>
  ∑ d : Fin 4, X (ix2 (⟨d.val * 2048 + (j 0).val, by have := (j 0).isLt; have := d.isLt; simp only [Matrix.cons_val_zero] at *; omega⟩ : Fin 8192)
    (⟨d.val * 2048 + (j 1).val, by have := (j 1).isLt; have := d.isLt; simp only [Matrix.cons_val_one, Matrix.cons_val_zero] at *; omega⟩ : Fin 8192))

/-- Row (or column) r of the 256-matrix, with bits 4–6 set to l, in the 2048-matrix: r's top bit (qubit 3) stays on top. -/
def src8a (r l : Nat) : Nat := r / 128 * 1024 + l * 128 + r % 128
/-- Row r of the 32-matrix, with bits 8–10 set to l, in the 256-matrix: r's two top bits (qubits 3, 7) stay on top. -/
def src8b (r l : Nat) : Nat := r / 8 * 64 + l * 8 + r % 8
/-- Row r of the 8-matrix, with bits 12–13 set to l, in the 32-matrix. -/
def src4 (r l : Nat) : Nat := r * 4 + l

theorem src8a_lt {r l : Nat} (hr : r < 256) (hl : l < 8) : src8a r l < 2048 := by unfold src8a; omega
theorem src8b_lt {r l : Nat} (hr : r < 32) (hl : l < 8) : src8b r l < 256 := by unfold src8b; omega
theorem src4_lt {r l : Nat} (hr : r < 8) (hl : l < 4) : src4 r l < 32 := by unfold src4; omega

/-- Bits 4–6 traced. -/
def strips8 (X : Mat 2048) : Mat 256 := fun j =>
  ∑ l : Fin 8, X (ix2 (⟨src8a (j 0).val l.val, src8a_lt (j 0).isLt l.isLt⟩ : Fin 2048) (⟨src8a (j 1).val l.val, src8a_lt (j 1).isLt l.isLt⟩ : Fin 2048))

/-- Bits 8–10 traced. -/
def cells8 (X : Mat 256) : Mat 32 := fun j =>
  ∑ l : Fin 8, X (ix2 (⟨src8b (j 0).val l.val, src8b_lt (j 0).isLt l.isLt⟩ : Fin 256) (⟨src8b (j 1).val l.val, src8b_lt (j 1).isLt l.isLt⟩ : Fin 256))

/-- Bits 12–13 traced. -/
def pairs4 (X : Mat 32) : Mat 8 := fun j =>
  ∑ l : Fin 4, X (ix2 (⟨src4 (j 0).val l.val, src4_lt (j 0).isLt l.isLt⟩ : Fin 32) (⟨src4 (j 1).val l.val, src4_lt (j 1).isLt l.isLt⟩ : Fin 32))

/-- The partial trace, group by group. -/
def byGroups (x : Arg) : Mat 8 := pairs4 (cells8 (strips8 (diag4 (flat x))))

/-- The row (or column) position with kept bits a = (a₂ a₁ a₀) at qubits 3, 7, 11 and traced bits t₁ … t₁₃. -/
def pos (a t1 t2 t4 t5 t6 t8 t9 t10 t12 t13 : Nat) : Nat :=
  t1 * 4096 + t2 * 2048 + a / 4 * 1024 + t4 * 512 + t5 * 256 + t6 * 128 + a / 2 % 2 * 64 + t8 * 32 + t9 * 16 + t10 * 8 + a % 2 * 4
    + t12 * 2 + t13

theorem pos_lt {a t1 t2 t4 t5 t6 t8 t9 t10 t12 t13 : Nat} (ha : a < 8) (h1 : t1 < 2) (h2 : t2 < 2) (h4 : t4 < 2) (h5 : t5 < 2) (h6 : t6 < 2)
    (h8 : t8 < 2) (h9 : t9 < 2) (h10 : t10 < 2) (h12 : t12 < 2) (h13 : t13 < 2) : pos a t1 t2 t4 t5 t6 t8 t9 t10 t12 t13 < 8192 := by
  unfold pos; omega

/-- The partial trace, bit by bit: qubit 13's sum outermost, qubit 1's innermost. -/
def bitTrace (x : Arg) : Mat 8 := fun j =>
  ∑ t13 : Fin 2, ∑ t12 : Fin 2, ∑ t10 : Fin 2, ∑ t9 : Fin 2, ∑ t8 : Fin 2, ∑ t6 : Fin 2, ∑ t5 : Fin 2, ∑ t4 : Fin 2, ∑ t2 : Fin 2, ∑ t1 : Fin 2,
    x (ix4 (0 : Fin 1) (0 : Fin 1)
      (⟨pos (j 0).val t1.val t2.val t4.val t5.val t6.val t8.val t9.val t10.val t12.val t13.val,
        pos_lt (j 0).isLt t1.isLt t2.isLt t4.isLt t5.isLt t6.isLt t8.isLt t9.isLt t10.isLt t12.isLt t13.isLt⟩ : Fin 8192)
      (⟨pos (j 1).val t1.val t2.val t4.val t5.val t6.val t8.val t9.val t10.val t12.val t13.val,
        pos_lt (j 1).isLt t1.isLt t2.isLt t4.isLt t5.isLt t6.isLt t8.isLt t9.isLt t10.isLt t12.isLt t13.isLt⟩ : Fin 8192))

end Cert.PartialTrace

end
-- ==== Proof.RegionValue.lean ====
/-
  What the one pipelined region leaves in its result array, at the extended reals.
  The region's input is the argument with its two unit axes dropped. Over the grid (row tile rt, diagonal block d),
  point 4·rt + d, the output block (rt, 0) is reset at d = 0 and receives the input block (4d + rt, d) at every d; it is
  written back after d = 3. Entry (r, s) of the result is therefore the sum over d of the input's entry
  (d·2048 + r, d·2048 + s): the sum of the four diagonal 2048 × 2048 blocks.
-/
import proofs.«134312_j28183575396357_1_alg».proof.Proof.FrameKI.Frame
import proofs.«134312_j28183575396357_1_alg».proof.Proof.Spec
import Idealize.ShloMosaic.Lib.Pipeline.Value
import Idealize.ShloMosaic.Lib.StableHlo.Run
import Idealize.ShloMosaic.Lib.ValueIdx
import Idealize.ShloMosaic.Lib.Tactic
import Idealize.ShloMosaic.PureOps.Ideal.Laws

set_option maxRecDepth 16384

noncomputable section

namespace Cert.KernelIdeal.RegionValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat Cfg Window)

/-! ## What each case of the body leaves, at any float model -/

section Cases

variable {F : FTy → Type} [FloatOps F]

theorem hz : (![0, 0] : Fin 2 → Nat) = fun _ => 0 := funext fun a => by fin_cases a <;> rfl

/-- The block of zeros the reset stores. -/
abbrev zero : Vec F S512x2048 .f32 := broadcast S512x2048 (Scalar.ofBits .f32 0x00000000#32)

/-- At a point with d ≠ 0 the body leaves the running sum plus the input block. -/
theorem out_B (c : Dev nD) (i : grid0.Coords) (a1 : Memref sig .tc .vmem S512x2048 .f32) (h1 : a1.IsWhole)
    (a2 : Memref sig .tc .vmem S512x2048 .f32) (h2 : a2.IsWhole) (hc : ¬cond0_0 i) (x xo : Vec F S512x2048 .f32) :
    out0_B_1 c i a1 h1 a2 h2 hc x xo = addf xo x := by
  unfold out0_B_1
  rw [View.read_writes_eq_canon _ _ _ (cover0_B_1 c i a1 h1 a2 h2 hc x xo)]
  unfold kernelRun0_B
  dsimp only
  sl_unfold_words
  rw [View.canon_unit_zero hz]
  unfold k0_pay2
  simp only [View.readAt_eq_ld, h1.read_unread, h2.read_unread, View.ld_unit_zero (S := S512x2048) hz, shapeCast_self]

/-- At a point with d = 0 the body stores zeros, reads them back, and leaves zero plus the input block. -/
theorem out_A (c : Dev nD) (i : grid0.Coords) (a1 : Memref sig .tc .vmem S512x2048 .f32) (h1 : a1.IsWhole)
    (a2 : Memref sig .tc .vmem S512x2048 .f32) (h2 : a2.IsWhole) (hc : cond0_0 i) (x : Vec F S512x2048 .f32) :
    out0_A_1 c i a1 h1 a2 h2 hc x = addf zero x := by
  unfold out0_A_1
  rw [View.read_writes_eq_canon _ _ _ (cover0_A_1 c i a1 h1 a2 h2 hc x)]
  unfold kernelRun0_A
  dsimp only
  sl_unfold_words
  rw [View.canon_cons_unit_zero (S := S512x2048) hz, View.readCov_unit_zero (S := S512x2048) _ hz]
  unfold k0_pay2 k0_pay1
  simp only [View.readAt_eq_ld, h1.read_unread, View.ld_unit_zero (S := S512x2048) hz, shapeCast_self]

variable (m : (ℓ : Loc nD τ sig) → Buf (Elt F) ℓ)

/-- At a point whose position is a multiple of four the output's staging buffer is left at zero plus that point's input block. -/
theorem outsAt_reset (c : Dev nD) (n : ℕ) (hn : n < cfg0.N) (h0 : n % 4 = 0) :
    outsAt0 m c n hn = addf zero (iblk m c 0 ⟨n, hn⟩) := by
  rw [outsAt0_A m c ⟨n, hn⟩ h0, out_A]

/-- At any other point it is left at what the point before left plus that point's input block. -/
theorem outsAt_step (c : Dev nD) (n : ℕ) (hn : n + 1 < cfg0.N) (hne : ¬(n + 1) % 4 = 0) :
    outsAt0 m c (n + 1) hn = addf (outsAt0 m c n (Nat.lt_of_succ_lt hn)) (iblk m c 0 ⟨n + 1, hn⟩) := by
  rw [outsAt0_B m c ⟨n + 1, hn⟩ hne, out_B]
  rfl

end Cases

variable (m : (ℓ : Loc nD τ sig) → Buf (Elt Ideal) ℓ)

/-- The reshape before the region only drops the two unit axes: the region's input array is the argument, flat. -/
theorem entry_value (c : Dev nD) :
    (V (F := Ideal) m c main_v0 : Cert.PartialTrace.Mat 8192) = Cert.PartialTrace.flat (m ((c : Thread nD τ).loc main_arg0)) := by
  have e : (V (F := Ideal) m c main_v0 : S8192x8192.Idx → EReal)
      = shapeCast S8192x8192 (m ((c : Thread nD τ).loc main_arg0)) shapeCasts_S1x1x8192x8192_S8192x8192 := by
    show StableHlo.after hostOps0 (fun b => m (c, b)) (Proc.devRef .tc main_v0) = _
    after_results
    rfl
  rw [e]
  funext j
  unfold Cert.PartialTrace.flat
  refine shapeCast_apply _ _ j (ix4 (0 : Fin 1) (0 : Fin 1) (j 0) (j 1)) ?_
  rw [Shape.rowMajor_val_four, Shape.rowMajor_val_two]
  show (((0 : Nat) * 1 + 0) * 8192 + (j 0).val) * 8192 + (j 1).val = (j 0).val * 8192 + (j 1).val
  omega

/-! ## The running sum in the output's staging buffer -/

/-- The input block of point `t`, over its literal shape. -/
abbrev xblk (c : Dev nD) (t : Fin cfg0.N) : Vec Ideal S512x2048 .f32 := iblk (F := Ideal) m c 0 t

/-- The region's input array, over its literal shape. -/
abbrev xarr (c : Dev nD) : S8192x8192.Idx → EReal := V (F := Ideal) m c main_v0

/-- Point `n`'s input block at position `y`, as a function of every natural number: zero past the grid. -/
def addend (c : Dev nD) (n : ℕ) (y : S512x2048.Idx) : EReal :=
  if h : n < cfg0.N then xblk m c ⟨n, h⟩ y else 0

/-- Point n = 4·rt + d reads block (4d + rt, d) of the input: position y of it is the input's entry
    (d·2048 + rt·512 + y₀, d·2048 + y₁). -/
theorem addend_eq (c : Dev nD) (n : ℕ) (hn : n < cfg0.N) (y : S512x2048.Idx) (k : S8192x8192.Idx)
    (hk0 : (k 0).val = n % 4 * 2048 + (n / 4 * 512 + (y 0).val)) (hk1 : (k 1).val = n % 4 * 2048 + (y 1).val) :
    addend m c n y = xarr m c k := by
  have hi : win0_0.index ⟨n, hn⟩ 0 = 4 * (n % 4) + n / 4 ∧ win0_0.index ⟨n, hn⟩ 1 = n % 4 :=
    (by decide +kernel : ∀ t : Fin grid0.N, win0_0.index t 0 = 4 * (t.val % 4) + t.val / 4 ∧ win0_0.index t 1 = t.val % 4) ⟨n, hn⟩
  unfold addend
  rw [dif_pos hn]
  unfold xblk iblk
  rw [View.read_apply]
  show V (F := Ideal) m c main_v0 _ = V (F := Ideal) m c main_v0 k
  congr 1
  funext a
  apply Fin.ext
  match a with
  | ⟨0, _⟩ => show win0_0.index ⟨n, hn⟩ 0 * 512 + 1 * (y 0).val = (k 0).val; rw [hi.1, hk0]; omega
  | ⟨1, _⟩ => show win0_0.index ⟨n, hn⟩ 1 * 2048 + 1 * (y 1).val = (k 1).val; rw [hi.2, hk1]; omega

/-- What a point with d = 0 leaves in the output's staging buffer: zero plus its input block. -/
def resetAt (c : Dev nD) (n : ℕ) (hn : n < cfg0.N) : Vec Ideal S512x2048 .f32 :=
  addf (F := Ideal) (s := S512x2048) (φ := .f32) (zero (F := Ideal)) (xblk m c ⟨n, hn⟩)

/-- What a point with d ≠ 0 leaves there over the running sum `acc`: the sum plus its input block. -/
def stepAt (c : Dev nD) (n : ℕ) (hn : n < cfg0.N) (acc : Vec Ideal S512x2048 .f32) : Vec Ideal S512x2048 .f32 :=
  addf (F := Ideal) (s := S512x2048) (φ := .f32) acc (xblk m c ⟨n, hn⟩)

/-- After the last point of row tile q the output's staging buffer holds, at each position, the sum of the four input
    blocks of points 4q, …, 4q + 3 there: the reset's zero is the additive unit, and the four additions in point order
    are the sum over d. -/
theorem value_at_flush (c : Dev nD) (q : ℕ) (h : 4 * q + 3 < cfg0.N) (y : S512x2048.Idx) :
    (outsAt0 (F := Ideal) m c (4 * q + 3) h : Vec Ideal S512x2048 .f32) y = ∑ d : Fin 4, addend m c (4 * q + d.val) y := by
  have fold : outsAt0 (F := Ideal) m c (4 * q + 3) h
      = Pipeline.accAt (N := cfg0.N) (resetAt m c) (stepAt m c) (4 * q) 3 h :=
    Pipeline.eq_accAt (N := cfg0.N) (outsAt0 (F := Ideal) m c) 4 (resetAt m c) (stepAt m c)
      (outsAt_reset (F := Ideal) m c) (outsAt_step (F := Ideal) m c) q 3 (by decide) h
  have unroll : Pipeline.accAt (N := cfg0.N) (resetAt m c) (stepAt m c) (4 * q) 3 h y
      = (0 : EReal) + ∑ s ∈ Finset.range (3 + 1), addend m c (4 * q + s) y :=
    Pipeline.accAt_add_apply (N := cfg0.N) (ι := S512x2048.Idx) (β := EReal) (resetAt m c) (stepAt m c)
      (fun _ => 0) (addend m c) (4 * q) 3
      (fun hb i => by
        show Ideal.ofBits .f32 0x00000000#32 + xblk m c ⟨4 * q, hb⟩ i = 0 + addend m c (4 * q) i
        rw [Ideal.ofBits_zero_f32]; unfold addend; rw [dif_pos hb])
      (fun n hn acc i _ _ => by
        show acc i + xblk m c ⟨n, hn⟩ i = acc i + addend m c n i
        unfold addend; rw [dif_pos hn])
      3 le_rfl h y
  rw [fold, unroll]
  show (0 : EReal) + ∑ s ∈ Finset.range 4, addend m c (4 * q + s) y = _
  rw [zero_add, Finset.sum_range]

/-- Read where the output block sits in the result: position y of row tile q's block is entry (q·512 + y₀, y₁), and
    d·2048 + (q·512 + y₀) is the row of block (4d + q, d)'s position y. -/
theorem block_value (c : Dev nD) (q : ℕ) (h : 4 * q + 3 < cfg0.N) (y : S512x2048.Idx) (j : S2048x2048.Idx)
    (hj0 : (j 0).val = q * 512 + (y 0).val) (hj1 : (j 1).val = (y 1).val) :
    (outsAt0 (F := Ideal) m c (4 * q + 3) h : Vec Ideal S512x2048 .f32) y = Cert.PartialTrace.diag4 (xarr m c) j := by
  have hN : cfg0.N = 16 := N_0
  rw [value_at_flush m c q h y]
  unfold Cert.PartialTrace.diag4
  refine Finset.sum_congr rfl fun d _ => ?_
  have hd := d.isLt
  refine addend_eq m c (4 * q + d.val) (by omega) y _ ?_ ?_
  · show d.val * 2048 + (j 0).val = (4 * q + d.val) % 4 * 2048 + ((4 * q + d.val) / 4 * 512 + (y 0).val)
    rw [hj0]; omega
  · show d.val * 2048 + (j 1).val = (4 * q + d.val) % 4 * 2048 + (y 1).val
    rw [hj1]; omega

/-! ## From the blocks to the array -/

/-- Every write-back writes its block of the sum of the four diagonal blocks. -/
theorem flushed_eq (c : Dev nD) (t : Fin cfg0.N) (hf : (cfg0.win 1).flush t = true) :
    (dats (F := Ideal) m 0 c).flushed 1 t
      = ((cfg0.win 1).blk t).view.read (Elt Ideal) (Cert.PartialTrace.diag4 (xarr m c)) := by
  have h3 : t.val % 4 = 3 := (flush0_1 t).mp hf
  obtain ⟨n, hn⟩ := t
  obtain ⟨q, rfl⟩ : ∃ q, n = 4 * q + 3 := ⟨n / 4, by dsimp only at h3; omega⟩
  have hi : win0_1.index ⟨4 * q + 3, hn⟩ 0 = (4 * q + 3) / 4 ∧ win0_1.index ⟨4 * q + 3, hn⟩ 1 = 0 :=
    (by decide +kernel : ∀ t : Fin grid0.N, win0_1.index t 0 = t.val / 4 ∧ win0_1.index t 1 = 0) ⟨4 * q + 3, hn⟩
  show (cfg0.win 1).cut (grid0.coords ⟨4 * q + 3, hn⟩) ((dats (F := Ideal) m 0 c).after 1 ⟨4 * q + 3, hn⟩) = _
  rw [after0_1]
  funext y
  rw [View.read_apply]
  refine block_value m c q hn y _ ?_ ?_
  · show win0_1.index ⟨4 * q + 3, hn⟩ 0 * 512 + 1 * (y 0).val = q * 512 + (y 0).val
    rw [hi.1]; omega
  · show win0_1.index ⟨4 * q + 3, hn⟩ 1 * 2048 + 1 * (y 1).val = (y 1).val
    rw [hi.2]; omega

/-- Row tile rt's output block is reset at d = 0 and receives input block (4d + rt, d) at d = 0, 1, 2, 3; it is written
    back once, after d = 3. So the region's result is the sum of the four diagonal 2048 × 2048 blocks of its input. -/
theorem region_value (c : Dev nD) :
    ((dats (F := Ideal) m 0 c).arrAt 1 cfg0.N : Cert.PartialTrace.Mat 2048) = Cert.PartialTrace.diag4 (V (F := Ideal) m c main_v0) :=
  (dats (F := Ideal) m 0 c).arrAt_eq_of_cover 1 (Cert.PartialTrace.diag4 (xarr m c)) (flushed_eq m c) fun i => by
    -- row r of the result lies in the block written back after the last point of row tile r / 512
    have hN : cfg0.N = 16 := N_0
    have h0 : (i 0 : Nat) < 2048 := (i 0).isLt
    have h1 : (i 1 : Nat) < 2048 := (i 1).isLt
    have ht : 4 * ((i 0 : Nat) / 512) + 3 < cfg0.N := by omega
    have hi : win0_1.index ⟨4 * ((i 0 : Nat) / 512) + 3, ht⟩ 0 = (4 * ((i 0 : Nat) / 512) + 3) / 4
        ∧ win0_1.index ⟨4 * ((i 0 : Nat) / 512) + 3, ht⟩ 1 = 0 :=
      (by decide +kernel : ∀ t : Fin grid0.N, win0_1.index t 0 = t.val / 4 ∧ win0_1.index t 1 = 0) ⟨4 * ((i 0 : Nat) / 512) + 3, ht⟩
    refine ⟨⟨4 * ((i 0 : Nat) / 512) + 3, ht⟩, (flush0_1 _).mpr (by dsimp only; omega), ?_⟩
    show i ∈ ((View.whole main_v1).slice (win0_1.rect ⟨4 * ((i 0 : Nat) / 512) + 3, ht⟩)).set
    rw [View.set_slice_whole, Rect.mem_set_unit]
    intro a
    match a with
    | ⟨0, _⟩ =>
      show win0_1.index ⟨4 * ((i 0 : Nat) / 512) + 3, ht⟩ 0 * 512 ≤ (i 0 : Nat)
        ∧ (i 0 : Nat) < win0_1.index ⟨4 * ((i 0 : Nat) / 512) + 3, ht⟩ 0 * 512 + 512
      rw [hi.1]; omega
    | ⟨1, _⟩ =>
      show win0_1.index ⟨4 * ((i 0 : Nat) / 512) + 3, ht⟩ 1 * 2048 ≤ (i 1 : Nat)
        ∧ (i 1 : Nat) < win0_1.index ⟨4 * ((i 0 : Nat) / 512) + 3, ht⟩ 1 * 2048 + 2048
      rw [hi.2]; omega

end Cert.KernelIdeal.RegionValue

end
-- ==== Proof.HostTail.lean ====
import proofs.«134312_j28183575396357_1_alg».proof.Proof.Gen.KernelIdeal.Launch
import proofs.«134312_j28183575396357_1_alg».proof.Proof.Spec
import Idealize.ShloMosaic.Lib.StableHlo.Run
import Idealize.ShloMosaic.Lib.ValueIdxRank6
import Idealize.ShloMosaic.Lib.Pipeline.Value
import Idealize.ShloMosaic.PureOps.Ideal.Laws

noncomputable section

namespace Cert.KernelIdeal.Tail

open Cert.KernelIdeal Cert.KernelIdeal.Gen Idealize.ShloMosaic Idealize.ShloMosaic.TcCoe Idealize.ShloMosaic.ValueIdx Idealize.ShloMosaic.StableHlo

variable {F : FTy → Type} [FloatOps F]

/-! ## The three rounds as functions

Each round views its square matrix with rows and columns cut into (kept, traced, rest) digits — six axes —, takes for
every value l of the traced digit the slab where the row's and the column's traced digit are both l, drops the two unit
axes, adds the slabs up onto a zero matrix, and flattens (kept, rest) × (kept, rest) back to a square matrix. -/

/-- Round 1's six-axis view: rows and columns of the 2048-matrix as (1 bit, 3 bits, 7 bits). -/
def view6a (X : FVec F S2048x2048 .f32) : FVec F S2x8x128x2x8x128 .f32 :=
  shapeCast S2x8x128x2x8x128 X shapeCasts_S2048x2048_S2x8x128x2x8x128

/-- Round 1's slab at the offsets `off`, unit axes dropped. -/
def slabA (X6 : FVec F S2x8x128x2x8x128 .f32) (off : Fin 6 → Nat) (h : S2x8x128x2x8x128.Slices off S2x1x128x2x1x128) :
    FVec F S2x128x2x128 .f32 :=
  shapeCast S2x128x2x128 (extractStridedSlice S2x1x128x2x1x128 off X6 h) shapeCasts_S2x1x128x2x1x128_S2x128x2x128

/-- Round 1: 2048 × 2048 to 256 × 256. -/
def round1 (X : FVec F S2048x2048 .f32) : FVec F S256x256 .f32 :=
  shapeCast S256x256
    (addf (addf (addf (addf (addf (addf (addf (addf (broadcastInDim S2x128x2x128 ![] bcast_S_S2x128x2x128 (constant S_ .f32 0x00000000#32))
      (slabA (view6a X) ![0, 0, 0, 0, 0, 0] slices_S2x8x128x2x8x128_S2x1x128x2x1x128_0_0_0_0_0_0))
      (slabA (view6a X) ![0, 1, 0, 0, 1, 0] slices_S2x8x128x2x8x128_S2x1x128x2x1x128_0_1_0_0_1_0))
      (slabA (view6a X) ![0, 2, 0, 0, 2, 0] slices_S2x8x128x2x8x128_S2x1x128x2x1x128_0_2_0_0_2_0))
      (slabA (view6a X) ![0, 3, 0, 0, 3, 0] slices_S2x8x128x2x8x128_S2x1x128x2x1x128_0_3_0_0_3_0))
      (slabA (view6a X) ![0, 4, 0, 0, 4, 0] slices_S2x8x128x2x8x128_S2x1x128x2x1x128_0_4_0_0_4_0))
      (slabA (view6a X) ![0, 5, 0, 0, 5, 0] slices_S2x8x128x2x8x128_S2x1x128x2x1x128_0_5_0_0_5_0))
      (slabA (view6a X) ![0, 6, 0, 0, 6, 0] slices_S2x8x128x2x8x128_S2x1x128x2x1x128_0_6_0_0_6_0))
      (slabA (view6a X) ![0, 7, 0, 0, 7, 0] slices_S2x8x128x2x8x128_S2x1x128x2x1x128_0_7_0_0_7_0))
    shapeCasts_S2x128x2x128_S256x256

/-- Round 2's six-axis view: rows and columns of the 256-matrix as (2 bits, 3 bits, 3 bits). -/
def view6b (X : FVec F S256x256 .f32) : FVec F S4x8x8x4x8x8 .f32 :=
  shapeCast S4x8x8x4x8x8 X shapeCasts_S256x256_S4x8x8x4x8x8

/-- Round 2's slab at the offsets `off`, unit axes dropped. -/
def slabB (X6 : FVec F S4x8x8x4x8x8 .f32) (off : Fin 6 → Nat) (h : S4x8x8x4x8x8.Slices off S4x1x8x4x1x8) :
    FVec F S4x8x4x8 .f32 :=
  shapeCast S4x8x4x8 (extractStridedSlice S4x1x8x4x1x8 off X6 h) shapeCasts_S4x1x8x4x1x8_S4x8x4x8

/-- Round 2: 256 × 256 to 32 × 32. -/
def round2 (X : FVec F S256x256 .f32) : FVec F S32x32 .f32 :=
  shapeCast S32x32
    (addf (addf (addf (addf (addf (addf (addf (addf (broadcastInDim S4x8x4x8 ![] bcast_S_S4x8x4x8 (constant S_ .f32 0x00000000#32))
      (slabB (view6b X) ![0, 0, 0, 0, 0, 0] slices_S4x8x8x4x8x8_S4x1x8x4x1x8_0_0_0_0_0_0))
      (slabB (view6b X) ![0, 1, 0, 0, 1, 0] slices_S4x8x8x4x8x8_S4x1x8x4x1x8_0_1_0_0_1_0))
      (slabB (view6b X) ![0, 2, 0, 0, 2, 0] slices_S4x8x8x4x8x8_S4x1x8x4x1x8_0_2_0_0_2_0))
      (slabB (view6b X) ![0, 3, 0, 0, 3, 0] slices_S4x8x8x4x8x8_S4x1x8x4x1x8_0_3_0_0_3_0))
      (slabB (view6b X) ![0, 4, 0, 0, 4, 0] slices_S4x8x8x4x8x8_S4x1x8x4x1x8_0_4_0_0_4_0))
      (slabB (view6b X) ![0, 5, 0, 0, 5, 0] slices_S4x8x8x4x8x8_S4x1x8x4x1x8_0_5_0_0_5_0))
      (slabB (view6b X) ![0, 6, 0, 0, 6, 0] slices_S4x8x8x4x8x8_S4x1x8x4x1x8_0_6_0_0_6_0))
      (slabB (view6b X) ![0, 7, 0, 0, 7, 0] slices_S4x8x8x4x8x8_S4x1x8x4x1x8_0_7_0_0_7_0))
    shapeCasts_S4x8x4x8_S32x32

/-- Round 3's six-axis view: rows and columns of the 32-matrix as (3 bits, 2 bits, nothing). -/
def view6c (X : FVec F S32x32 .f32) : FVec F S8x4x1x8x4x1 .f32 :=
  shapeCast S8x4x1x8x4x1 X shapeCasts_S32x32_S8x4x1x8x4x1

/-- Round 3's slab at the offsets `off`, unit axes dropped. -/
def slabC (X6 : FVec F S8x4x1x8x4x1 .f32) (off : Fin 6 → Nat) (h : S8x4x1x8x4x1.Slices off S8x1x1x8x1x1) :
    FVec F S8x1x8x1 .f32 :=
  shapeCast S8x1x8x1 (extractStridedSlice S8x1x1x8x1x1 off X6 h) shapeCasts_S8x1x1x8x1x1_S8x1x8x1

/-- Round 3: 32 × 32 to 8 × 8. -/
def round3 (X : FVec F S32x32 .f32) : FVec F S8x8 .f32 :=
  shapeCast S8x8
    (addf (addf (addf (addf (broadcastInDim S8x1x8x1 ![] bcast_S_S8x1x8x1 (constant S_ .f32 0x00000000#32))
      (slabC (view6c X) ![0, 0, 0, 0, 0, 0] slices_S8x4x1x8x4x1_S8x1x1x8x1x1_0_0_0_0_0_0))
      (slabC (view6c X) ![0, 1, 0, 0, 1, 0] slices_S8x4x1x8x4x1_S8x1x1x8x1x1_0_1_0_0_1_0))
      (slabC (view6c X) ![0, 2, 0, 0, 2, 0] slices_S8x4x1x8x4x1_S8x1x1x8x1x1_0_2_0_0_2_0))
      (slabC (view6c X) ![0, 3, 0, 0, 3, 0] slices_S8x4x1x8x4x1_S8x1x1x8x1x1_0_3_0_0_3_0))
    shapeCasts_S8x1x8x1_S8x8

/-- What the host operations after the kernel compute from the kernel's 2048 × 2048 result: three rounds of
    "cut rows and columns into (kept, traced, rest), add up the slices whose traced row and column digits agree". -/
def tailFn (X : Vec F S2048x2048 .f32) : Vec F S8x8 .f32 :=
  round3 (round2 (round1 X))

set_option maxRecDepth 8192 in
set_option maxHeartbeats 40000000 in
/-- The 72 host operations after the kernel leave `tailFn` of the kernel's result in the program's result buffer. -/
theorem after_hostOps1 (W : Valuation τ sig (Elt F)) :
    StableHlo.after (hostOps1 (F := F)) W (Proc.devRef .tc main_v70) = tailFn (W (Proc.devRef .tc main_v1)) := by
  after_results_simp
  rfl

/-! ## The rounds read at an index

A slab of the six-axis view, its unit axes dropped, read at (a, b, c, d) is the matrix at row (a, l, b) and column
(c, l, d): three row-major re-indexings, each an identity between two mixed-radix numerals. -/

/-- The zero matrix the slabs are added onto. -/
theorem zeros_apply {t : Shape} (h : S_.BroadcastsInDim t (![] : Fin 0 → Fin t.rank)) (j : t.Idx) :
    broadcastInDim t ![] h (constant (F := Ideal) S_ .f32 0x00000000#32) j = 0 := by
  unfold broadcastInDim
  exact Ideal.ofBits_zero_f32

/-- Round 1's slab at traced digit `l`, read at an index. -/
theorem slabA_apply (X : FVec F S2048x2048 .f32) (l : Nat) (hl : l < 8) (h : S2x8x128x2x8x128.Slices ![0, l, 0, 0, l, 0] S2x1x128x2x1x128)
    (a : Fin 2) (b : Fin 128) (c : Fin 2) (d : Fin 128) :
    slabA (view6a X) ![0, l, 0, 0, l, 0] h (ix4 a b c d)
      = X (ix2 (⟨a.val * 1024 + l * 128 + b.val, by omega⟩ : Fin 2048) (⟨c.val * 1024 + l * 128 + d.val, by omega⟩ : Fin 2048)) := by
  unfold slabA view6a
  refine (shapeCast_apply _ _ (ix4 a b c d) (ix6 a (0 : Fin 1) b c (0 : Fin 1) d) ?_).trans ?_
  · rw [Shape.rowMajor_val_six, Shape.rowMajor_val_four]
    show ((((a.val * 1 + 0) * 128 + b.val) * 2 + c.val) * 1 + 0) * 128 + d.val = ((a.val * 128 + b.val) * 2 + c.val) * 128 + d.val
    omega
  refine (extractStridedSlice_apply _ _ _ (ix6 a (0 : Fin 1) b c (0 : Fin 1) d)
    (ix6 a (⟨l, hl⟩ : Fin 8) b c (⟨l, hl⟩ : Fin 8) d) fun e => ?_).trans ?_
  · match e with
    | ⟨0, _⟩ => show a.val = 0 + a.val; omega
    | ⟨1, _⟩ => show l = l + 0; omega
    | ⟨2, _⟩ => show b.val = 0 + b.val; omega
    | ⟨3, _⟩ => show c.val = 0 + c.val; omega
    | ⟨4, _⟩ => show l = l + 0; omega
    | ⟨5, _⟩ => show d.val = 0 + d.val; omega
  refine shapeCast_apply _ _ _ _ ?_
  rw [Shape.rowMajor_val_two, Shape.rowMajor_val_six]
  show (a.val * 1024 + l * 128 + b.val) * 2048 + (c.val * 1024 + l * 128 + d.val) = ((((a.val * 8 + l) * 128 + b.val) * 2 + c.val) * 8 + l) * 128 + d.val
  omega

/-- Round 1 on the extended reals: the slabs' sum is the trace of the middle digit. -/
theorem round1_eq (X : FVec Ideal S2048x2048 .f32) : round1 (F := Ideal) X = Cert.PartialTrace.strips8 X := by
  funext j
  obtain ⟨p, q, rfl⟩ : ∃ (p q : Fin 256), j = ix2 p q := ⟨j 0, j 1, eq_ix2 j⟩
  unfold round1
  refine (shapeCast_apply _ _ (ix2 p q) (ix4 (⟨p.val / 128, by omega⟩ : Fin 2) (⟨p.val % 128, by omega⟩ : Fin 128) (⟨q.val / 128, by omega⟩ : Fin 2) (⟨q.val % 128, by omega⟩ : Fin 128)) ?_).trans ?_
  · rw [Shape.rowMajor_val_four, Shape.rowMajor_val_two]
    show ((p.val / 128 * 128 + p.val % 128) * 2 + q.val / 128) * 128 + q.val % 128 = p.val * 256 + q.val
    omega
  simp only [addf_apply]
  rw [zeros_apply, zero_add, slabA_apply X 0 (by omega), slabA_apply X 1 (by omega), slabA_apply X 2 (by omega), slabA_apply X 3 (by omega), slabA_apply X 4 (by omega), slabA_apply X 5 (by omega), slabA_apply X 6 (by omega), slabA_apply X 7 (by omega)]
  show _ = ∑ l : Fin 8, X (ix2 (⟨Cert.PartialTrace.src8a p.val l.val, Cert.PartialTrace.src8a_lt p.isLt l.isLt⟩ : Fin 2048)
    (⟨Cert.PartialTrace.src8a q.val l.val, Cert.PartialTrace.src8a_lt q.isLt l.isLt⟩ : Fin 2048))
  rw [Fin.sum_univ_eight]
  rfl

/-- Round 2's slab at traced digit `l`, read at an index. -/
theorem slabB_apply (X : FVec F S256x256 .f32) (l : Nat) (hl : l < 8) (h : S4x8x8x4x8x8.Slices ![0, l, 0, 0, l, 0] S4x1x8x4x1x8)
    (a : Fin 4) (b : Fin 8) (c : Fin 4) (d : Fin 8) :
    slabB (view6b X) ![0, l, 0, 0, l, 0] h (ix4 a b c d)
      = X (ix2 (⟨a.val * 64 + l * 8 + b.val, by omega⟩ : Fin 256) (⟨c.val * 64 + l * 8 + d.val, by omega⟩ : Fin 256)) := by
  unfold slabB view6b
  refine (shapeCast_apply _ _ (ix4 a b c d) (ix6 a (0 : Fin 1) b c (0 : Fin 1) d) ?_).trans ?_
  · rw [Shape.rowMajor_val_six, Shape.rowMajor_val_four]
    show ((((a.val * 1 + 0) * 8 + b.val) * 4 + c.val) * 1 + 0) * 8 + d.val = ((a.val * 8 + b.val) * 4 + c.val) * 8 + d.val
    omega
  refine (extractStridedSlice_apply _ _ _ (ix6 a (0 : Fin 1) b c (0 : Fin 1) d)
    (ix6 a (⟨l, hl⟩ : Fin 8) b c (⟨l, hl⟩ : Fin 8) d) fun e => ?_).trans ?_
  · match e with
    | ⟨0, _⟩ => show a.val = 0 + a.val; omega
    | ⟨1, _⟩ => show l = l + 0; omega
    | ⟨2, _⟩ => show b.val = 0 + b.val; omega
    | ⟨3, _⟩ => show c.val = 0 + c.val; omega
    | ⟨4, _⟩ => show l = l + 0; omega
    | ⟨5, _⟩ => show d.val = 0 + d.val; omega
  refine shapeCast_apply _ _ _ _ ?_
  rw [Shape.rowMajor_val_two, Shape.rowMajor_val_six]
  show (a.val * 64 + l * 8 + b.val) * 256 + (c.val * 64 + l * 8 + d.val) = ((((a.val * 8 + l) * 8 + b.val) * 4 + c.val) * 8 + l) * 8 + d.val
  omega

/-- Round 2 on the extended reals: the slabs' sum is the trace of the middle digit. -/
theorem round2_eq (X : FVec Ideal S256x256 .f32) : round2 (F := Ideal) X = Cert.PartialTrace.cells8 X := by
  funext j
  obtain ⟨p, q, rfl⟩ : ∃ (p q : Fin 32), j = ix2 p q := ⟨j 0, j 1, eq_ix2 j⟩
  unfold round2
  refine (shapeCast_apply _ _ (ix2 p q) (ix4 (⟨p.val / 8, by omega⟩ : Fin 4) (⟨p.val % 8, by omega⟩ : Fin 8) (⟨q.val / 8, by omega⟩ : Fin 4) (⟨q.val % 8, by omega⟩ : Fin 8)) ?_).trans ?_
  · rw [Shape.rowMajor_val_four, Shape.rowMajor_val_two]
    show ((p.val / 8 * 8 + p.val % 8) * 4 + q.val / 8) * 8 + q.val % 8 = p.val * 32 + q.val
    omega
  simp only [addf_apply]
  rw [zeros_apply, zero_add, slabB_apply X 0 (by omega), slabB_apply X 1 (by omega), slabB_apply X 2 (by omega), slabB_apply X 3 (by omega), slabB_apply X 4 (by omega), slabB_apply X 5 (by omega), slabB_apply X 6 (by omega), slabB_apply X 7 (by omega)]
  show _ = ∑ l : Fin 8, X (ix2 (⟨Cert.PartialTrace.src8b p.val l.val, Cert.PartialTrace.src8b_lt p.isLt l.isLt⟩ : Fin 256)
    (⟨Cert.PartialTrace.src8b q.val l.val, Cert.PartialTrace.src8b_lt q.isLt l.isLt⟩ : Fin 256))
  rw [Fin.sum_univ_eight]
  rfl

/-- Round 3's slab at traced digit `l`, read at an index. -/
theorem slabC_apply (X : FVec F S32x32 .f32) (l : Nat) (hl : l < 4) (h : S8x4x1x8x4x1.Slices ![0, l, 0, 0, l, 0] S8x1x1x8x1x1)
    (a : Fin 8) (c : Fin 8) :
    slabC (view6c X) ![0, l, 0, 0, l, 0] h (ix4 a (0 : Fin 1) c (0 : Fin 1))
      = X (ix2 (⟨a.val * 4 + l, by omega⟩ : Fin 32) (⟨c.val * 4 + l, by omega⟩ : Fin 32)) := by
  unfold slabC view6c
  refine (shapeCast_apply _ _ (ix4 a (0 : Fin 1) c (0 : Fin 1)) (ix6 a (0 : Fin 1) (0 : Fin 1) c (0 : Fin 1) (0 : Fin 1)) ?_).trans ?_
  · rw [Shape.rowMajor_val_six, Shape.rowMajor_val_four]
    show ((((a.val * 1 + 0) * 1 + 0) * 8 + c.val) * 1 + 0) * 1 + 0 = ((a.val * 1 + 0) * 8 + c.val) * 1 + 0
    omega
  refine (extractStridedSlice_apply _ _ _ (ix6 a (0 : Fin 1) (0 : Fin 1) c (0 : Fin 1) (0 : Fin 1))
    (ix6 a (⟨l, hl⟩ : Fin 4) (0 : Fin 1) c (⟨l, hl⟩ : Fin 4) (0 : Fin 1)) fun e => ?_).trans ?_
  · match e with
    | ⟨0, _⟩ => show a.val = 0 + a.val; omega
    | ⟨1, _⟩ => show l = l + 0; omega
    | ⟨2, _⟩ => show 0 = 0 + 0; omega
    | ⟨3, _⟩ => show c.val = 0 + c.val; omega
    | ⟨4, _⟩ => show l = l + 0; omega
    | ⟨5, _⟩ => show 0 = 0 + 0; omega
  refine shapeCast_apply _ _ _ _ ?_
  rw [Shape.rowMajor_val_two, Shape.rowMajor_val_six]
  show (a.val * 4 + l) * 32 + (c.val * 4 + l) = ((((a.val * 4 + l) * 1 + 0) * 8 + c.val) * 4 + l) * 1 + 0
  omega

/-- Round 3 on the extended reals: the slabs' sum is the trace of the middle digit. -/
theorem round3_eq (X : FVec Ideal S32x32 .f32) : round3 (F := Ideal) X = Cert.PartialTrace.pairs4 X := by
  funext j
  obtain ⟨p, q, rfl⟩ : ∃ (p q : Fin 8), j = ix2 p q := ⟨j 0, j 1, eq_ix2 j⟩
  unfold round3
  refine (shapeCast_apply _ _ (ix2 p q) (ix4 p (0 : Fin 1) q (0 : Fin 1)) ?_).trans ?_
  · rw [Shape.rowMajor_val_four, Shape.rowMajor_val_two]
    show ((p.val * 1 + 0) * 8 + q.val) * 1 + 0 = p.val * 8 + q.val
    omega
  simp only [addf_apply]
  rw [zeros_apply, zero_add, slabC_apply X 0 (by omega), slabC_apply X 1 (by omega), slabC_apply X 2 (by omega), slabC_apply X 3 (by omega)]
  show _ = ∑ l : Fin 4, X (ix2 (⟨Cert.PartialTrace.src4 p.val l.val, Cert.PartialTrace.src4_lt p.isLt l.isLt⟩ : Fin 32)
    (⟨Cert.PartialTrace.src4 q.val l.val, Cert.PartialTrace.src4_lt q.isLt l.isLt⟩ : Fin 32))
  rw [Fin.sum_univ_four]
  rfl

/-- On the extended reals those three rounds are the traces of bits 4–6, 8–10 and 12–13. -/
theorem tailFn_eq (X : Vec Ideal S2048x2048 .f32) :
    tailFn (F := Ideal) X = Cert.PartialTrace.pairs4 (Cert.PartialTrace.cells8 (Cert.PartialTrace.strips8 X)) := by
  unfold tailFn
  rw [round1_eq, round2_eq, round3_eq]

end Cert.KernelIdeal.Tail

end
-- ==== Proof.KernelValue.lean ====
/-
  The idealized program's result. After the region its output array holds the sum of the four diagonal blocks of the
  flattened argument; the 72 later operations read only that array and trace bits 4–6, 8–10 and 12–13 out of it; so the
  result buffer holds the partial trace of the argument, summed group by group.
-/
import proofs.«134312_j28183575396357_1_alg».proof.Proof.FrameKI.Frame
import proofs.«134312_j28183575396357_1_alg».proof.Proof.RegionValue
import proofs.«134312_j28183575396357_1_alg».proof.Proof.HostTail
import proofs.«134312_j28183575396357_1_alg».proof.Proof.Spec

set_option maxRecDepth 16384

noncomputable section

namespace Cert.KernelIdeal.KernelValue

open Cert.KernelIdeal Cert.KernelIdeal.Gen Cert.KernelIdeal.Frame
open Idealize.ShloMosaic Idealize.ShloMosaic.TcCoe Idealize.SL.Sem
open Idealize.ShloMosaic.Pipeline (Dat Cfg Window)

variable (m : (ℓ : Loc nD τ sig) → Buf (Elt Ideal) ℓ)

set_option maxHeartbeats 8000000 in
/-- What the result buffer holds when the program ends: the later operations applied to the region's output array, which is
    the four-block sum of the region's input array, which is the argument without its unit axes. -/
theorem result_value (c : Dev nD) :
    Pipeline.afterTail₀ cfgs (dats (F := Ideal) m) 0 (V0 (F := Ideal) m) [hostOps1] c main_v70
      = Cert.PartialTrace.byGroups (m ((c : Thread nD τ).loc main_arg0)) := by
  have hflat : (List.flatten [hostOps1 (F := Ideal)] : List (HloOp τ sig (Elt Ideal))) = hostOps1 := by
    simp only [List.flatten_cons, List.flatten_nil, List.append_nil]
  unfold Pipeline.afterTail₀
  rw [hflat]
  refine (Cert.KernelIdeal.Tail.after_hostOps1 (F := Ideal) _).trans ?_
  refine (congrArg (Cert.KernelIdeal.Tail.tailFn (F := Ideal)) (Pipeline.withArrays_arr spec0 launch0.win.arr_inj c _ _ 1)).trans ?_
  refine (congrArg (Cert.KernelIdeal.Tail.tailFn (F := Ideal))
    ((Cert.KernelIdeal.RegionValue.region_value m c).trans
      (congrArg Cert.PartialTrace.diag4 (Cert.KernelIdeal.RegionValue.entry_value m c)))).trans ?_
  exact Cert.KernelIdeal.Tail.tailFn_eq _

end Cert.KernelIdeal.KernelValue

end
-- ==== Proof.RefIdx.lean ====
import proofs.«134312_j28183575396357_1_alg».proof.ReferenceIdeal

noncomputable section

namespace Cert.ReferenceIdeal.RefValue

open Cert.ReferenceIdeal Idealize.ShloMosaic

/-- An index of the reference's 2^26 array: the thirteen row bits (qubit 1 first), then the thirteen column bits.
    The traced bits t₁ … t₁₃ are shared by row and column; the kept bits are a₂ a₁ a₀ (row) and b₂ b₁ b₀ (column). -/
def bits26 (t1 t2 a2 t4 t5 t6 a1 t8 t9 t10 a0 t12 t13 b2 b1 b0 : Fin 2) : S2x2x2x2x2x2x2x2x2x2x2x2x2x2x2x2x2x2x2x2x2x2x2x2x2x2.Idx := fun a => match a with
  | ⟨0, _⟩ => t1
  | ⟨1, _⟩ => t2
  | ⟨2, _⟩ => a2
  | ⟨3, _⟩ => t4
  | ⟨4, _⟩ => t5
  | ⟨5, _⟩ => t6
  | ⟨6, _⟩ => a1
  | ⟨7, _⟩ => t8
  | ⟨8, _⟩ => t9
  | ⟨9, _⟩ => t10
  | ⟨10, _⟩ => a0
  | ⟨11, _⟩ => t12
  | ⟨12, _⟩ => t13
  | ⟨13, _⟩ => t1
  | ⟨14, _⟩ => t2
  | ⟨15, _⟩ => b2
  | ⟨16, _⟩ => t4
  | ⟨17, _⟩ => t5
  | ⟨18, _⟩ => t6
  | ⟨19, _⟩ => b1
  | ⟨20, _⟩ => t8
  | ⟨21, _⟩ => t9
  | ⟨22, _⟩ => t10
  | ⟨23, _⟩ => b0
  | ⟨24, _⟩ => t12
  | ⟨25, _⟩ => t13
  | ⟨_ + 26, h⟩ => absurd h (Nat.not_lt.2 (Nat.le_add_left _ _))

/-- An index of the reference's 2^6 result before its last reshape: the kept row bits, then the kept column bits. -/
def bits6 (a2 a1 a0 b2 b1 b0 : Fin 2) : S2x2x2x2x2x2.Idx := fun a => match a with
  | ⟨0, _⟩ => a2
  | ⟨1, _⟩ => a1
  | ⟨2, _⟩ => a0
  | ⟨3, _⟩ => b2
  | ⟨4, _⟩ => b1
  | ⟨5, _⟩ => b0

end Cert.ReferenceIdeal.RefValue

end
-- ==== Proof.RefRounds.lean ====
import proofs.«134312_j28183575396357_1_alg».proof.Proof.Gen.ReferenceIdeal.Run
import proofs.«134312_j28183575396357_1_alg».proof.Proof.Gen.ReferenceIdeal.Read
import proofs.«134312_j28183575396357_1_alg».proof.Proof.RefIdx
import Idealize.ShloMosaic.Lib.ValueIdx
import Idealize.ShloMosaic.PureOps.Ideal.Laws
import Idealize.ShloMosaic.Lib.IdealHost
import Idealize.ShloMosaic.PureOps.Reduce

noncomputable section

namespace Cert.ReferenceIdeal.RefValue

open Cert.ReferenceIdeal Cert.ReferenceIdeal.Read Idealize.ShloMosaic Idealize.ShloMosaic.ValueIdx

/-! ## One mask-and-sum round, over any shapes whose axes all have size two -/

section Generic

variable {s t : Shape} {axes : List (Fin s.rank)}

/-- The result axis that source axis number `c` becomes when the axes numbered `p < q` are dropped. -/
def dropTwo (p q c : Nat) : Nat := if c < p then c else if c < q then c - 1 else c - 2

/-- `dropTwo` as a map of axes (reduced modulo the result's rank, which changes nothing on a kept axis). -/
def tauOf (n m p q : Nat) (hm : 0 < m) : Fin n → Fin m := fun c => ⟨dropTwo p q c.val % m, Nat.mod_lt _ hm⟩

/-- The source index over the result index `j` with `ka`, `kb` on the two dropped axes `p`, `q`, every axis of
    size two; `τ` names the result axis a kept source axis becomes. -/
def ins2 (hs : ∀ c : Fin s.rank, s.size c = 2) (ht : ∀ b : Fin t.rank, t.size b = 2) (p q : Fin s.rank)
    (τ : Fin s.rank → Fin t.rank) (j : t.Idx) (ka kb : Fin 2) : s.Idx :=
  fun c => if c = p then ka.cast (hs c).symm else if c = q then kb.cast (hs c).symm
    else ((j (τ c)).cast (ht (τ c))).cast (hs c).symm

variable (hs : ∀ c : Fin s.rank, s.size c = 2) (ht : ∀ b : Fin t.rank, t.size b = 2) (p q : Fin s.rank)
  (τ : Fin s.rank → Fin t.rank) (j : t.Idx) (ka kb : Fin 2)

theorem ins2_val_p : (ins2 hs ht p q τ j ka kb p).val = ka.val := by
  show (if p = p then ka.cast (hs p).symm else _).val = _
  rw [if_pos rfl]; rfl

theorem ins2_val_q (hpq : p ≠ q) : (ins2 hs ht p q τ j ka kb q).val = kb.val := by
  show (if q = p then ka.cast (hs q).symm else if q = q then kb.cast (hs q).symm else _).val = _
  rw [if_neg (Ne.symm hpq), if_pos rfl]; rfl

theorem ins2_val_kept (c : Fin s.rank) (hp : c ≠ p) (hq : c ≠ q) : (ins2 hs ht p q τ j ka kb c).val = (j (τ c)).val := by
  show (if c = p then ka.cast (hs c).symm else if c = q then kb.cast (hs c).symm else _).val = _
  rw [if_neg hp, if_neg hq]; rfl

/-- The indices that drop to `j` when two axes of size two are reduced are `j` with the four pairs of coordinates
    inserted on those axes: the sum over them is the double sum over the pair. The two hypotheses say that the kept
    axes are exactly the axes other than `p` and `q`, and that `τ` inverts their numbering. -/
theorem sum_filter_drop_pair {α : Type} [AddCommMonoid α] (h' : s.ReducesTo axes t) (hpq : p ≠ q)
    (hσ : ∀ b : Fin t.rank, (s.kept axes)[b.cast h'.1] ≠ p ∧ (s.kept axes)[b.cast h'.1] ≠ q ∧ τ ((s.kept axes)[b.cast h'.1]) = b)
    (hcov : ∀ c : Fin s.rank, c = p ∨ c = q ∨ (s.kept axes)[(τ c).cast h'.1] = c)
    (f : s.Idx → α) :
    ∑ i ∈ Finset.univ.filter (fun i => h'.drop i = j), f i
      = ∑ ka : Fin 2, ∑ kb : Fin 2, f (ins2 hs ht p q τ j ka kb) := by
  have hdrop : ∀ (i : s.Idx) (b : Fin t.rank), (h'.drop i b).val = (i ((s.kept axes)[b.cast h'.1])).val := fun i b => rfl
  have hl : ∀ i : s.Idx, h'.drop i = j → ins2 hs ht p q τ j ((i p).cast (hs p)) ((i q).cast (hs q)) = i := by
    intro i hi
    funext c
    apply Fin.ext
    by_cases hp : c = p
    · rw [hp, ins2_val_p]; rfl
    · by_cases hq : c = q
      · rw [hq, ins2_val_q hs ht p q τ j _ _ hpq]; rfl
      · rw [ins2_val_kept hs ht p q τ j _ _ c hp hq]
        rcases hcov c with h | h | h
        · exact absurd h hp
        · exact absurd h hq
        · rw [← hi, hdrop]; exact congrArg (fun x => (i x).val) h
  refine Eq.trans ?_ (Fintype.sum_prod_type' (fun ka kb => f (ins2 hs ht p q τ j ka kb)))
  refine Finset.sum_nbij' (fun i => ((i p).cast (hs p), (i q).cast (hs q))) (fun k => ins2 hs ht p q τ j k.1 k.2) ?_ ?_ ?_ ?_ ?_
  · intro i _; exact Finset.mem_univ _
  · intro k _
    refine Finset.mem_filter.2 ⟨Finset.mem_univ _, ?_⟩
    funext b
    apply Fin.ext
    rw [hdrop, ins2_val_kept hs ht p q τ j _ _ _ (hσ b).1 (hσ b).2.1]
    exact congrArg (fun x => (j x).val) (hσ b).2.2
  · intro i hi; exact hl i (Finset.mem_filter.1 hi).2
  · intro k _
    exact Prod.ext (Fin.ext (ins2_val_p hs ht p q τ j k.1 k.2)) (Fin.ext (ins2_val_q hs ht p q τ j k.1 k.2 hpq))
  · intro i hi
    show f i = f (ins2 hs ht p q τ j ((i p).cast (hs p)) ((i q).cast (hs q)))
    rw [hl i (Finset.mem_filter.1 hi).2]

/-- A select on "the two words, each below two, are equal" is the `if` on their equality. -/
theorem select_cmpi_eq {α : Type} (a b : Nat) (ha : a < 2) (hb : b < 2) (A B : α) :
    Scalar.select (IntOp.cmpi .eq (BitVec.ofNat 32 a) (BitVec.ofNat 32 b)) A B = if a = b then A else B := by
  interval_cases a <;> interval_cases b <;> rfl

/-- One mask-and-sum round at the ideal values: the host's sum, from zero, over two axes of size two of an array that
    is `cur` where the two coordinates agree and zero elsewhere, is the sum of `cur` over the agreeing pairs. -/
theorem reduceAdd_pair_masked {u : Shape} (h' : s.ReducesTo axes t) (hu : 0 < u.numel) (hpq : p ≠ q)
    (hσ : ∀ b : Fin t.rank, (s.kept axes)[b.cast h'.1] ≠ p ∧ (s.kept axes)[b.cast h'.1] ≠ q ∧ τ ((s.kept axes)[b.cast h'.1]) = b)
    (hcov : ∀ c : Fin s.rank, c = p ∨ c = q ∨ (s.kept axes)[(τ c).cast h'.1] = c)
    (sel cur : FVec Ideal s .f32) (init : u.Idx → Ideal .f32) (hinit : ∀ i, init i = 0)
    (hsel : ∀ i : s.Idx, sel i = if (i p).val = (i q).val then cur i else 0) :
    Host.reduceAdd sel init h' hu j = ∑ k : Fin 2, cur (ins2 hs ht p q τ j k k) := by
  rw [hostReduceAdd_apply]
  unfold Ideal.hostReduceAdd
  rw [hinit, zero_add, sum_filter_drop_pair hs ht p q τ j h' hpq hσ hcov]
  simp only [Fin.sum_univ_two, hsel, ins2_val_p, ins2_val_q hs ht p q τ j _ _ hpq]
  simp

end Generic

/-! ## The ten arrays' shapes and index vectors

After round r the array has 26 - 2r axes: the row bits not yet traced, then the column bits not yet traced. Each
vector below lists them the way `bits26` does: a traced bit still present appears once among the row bits and once
among the column bits. -/

abbrev T6 : Shape := S2x2x2x2x2x2
abbrev T8 : Shape := S2x2x2x2x2x2x2x2
abbrev T10 : Shape := S2x2x2x2x2x2x2x2x2x2
abbrev T12 : Shape := S2x2x2x2x2x2x2x2x2x2x2x2
abbrev T14 : Shape := S2x2x2x2x2x2x2x2x2x2x2x2x2x2
abbrev T16 : Shape := S2x2x2x2x2x2x2x2x2x2x2x2x2x2x2x2
abbrev T18 : Shape := S2x2x2x2x2x2x2x2x2x2x2x2x2x2x2x2x2x2
abbrev T20 : Shape := S2x2x2x2x2x2x2x2x2x2x2x2x2x2x2x2x2x2x2x2
abbrev T22 : Shape := S2x2x2x2x2x2x2x2x2x2x2x2x2x2x2x2x2x2x2x2x2x2
abbrev T24 : Shape := S2x2x2x2x2x2x2x2x2x2x2x2x2x2x2x2x2x2x2x2x2x2x2x2
abbrev T26 : Shape := S2x2x2x2x2x2x2x2x2x2x2x2x2x2x2x2x2x2x2x2x2x2x2x2x2x2

theorem hs6 : ∀ c : Fin T6.rank, T6.size c = 2 := by decide
theorem hs8 : ∀ c : Fin T8.rank, T8.size c = 2 := by decide
theorem hs10 : ∀ c : Fin T10.rank, T10.size c = 2 := by decide
theorem hs12 : ∀ c : Fin T12.rank, T12.size c = 2 := by decide
theorem hs14 : ∀ c : Fin T14.rank, T14.size c = 2 := by decide
theorem hs16 : ∀ c : Fin T16.rank, T16.size c = 2 := by decide
theorem hs18 : ∀ c : Fin T18.rank, T18.size c = 2 := by decide
theorem hs20 : ∀ c : Fin T20.rank, T20.size c = 2 := by decide
theorem hs22 : ∀ c : Fin T22.rank, T22.size c = 2 := by decide
theorem hs24 : ∀ c : Fin T24.rank, T24.size c = 2 := by decide
theorem hs26 : ∀ c : Fin T26.rank, T26.size c = 2 := by decide

/-- After round 1 (qubit 1 traced). -/
def bits24 (t2 a2 t4 t5 t6 a1 t8 t9 t10 a0 t12 t13 b2 b1 b0 : Fin 2) : T24.Idx := fun a => match a with
  | ⟨0, _⟩ => t2
  | ⟨1, _⟩ => a2
  | ⟨2, _⟩ => t4
  | ⟨3, _⟩ => t5
  | ⟨4, _⟩ => t6
  | ⟨5, _⟩ => a1
  | ⟨6, _⟩ => t8
  | ⟨7, _⟩ => t9
  | ⟨8, _⟩ => t10
  | ⟨9, _⟩ => a0
  | ⟨10, _⟩ => t12
  | ⟨11, _⟩ => t13
  | ⟨12, _⟩ => t2
  | ⟨13, _⟩ => b2
  | ⟨14, _⟩ => t4
  | ⟨15, _⟩ => t5
  | ⟨16, _⟩ => t6
  | ⟨17, _⟩ => b1
  | ⟨18, _⟩ => t8
  | ⟨19, _⟩ => t9
  | ⟨20, _⟩ => t10
  | ⟨21, _⟩ => b0
  | ⟨22, _⟩ => t12
  | ⟨23, _⟩ => t13
  | ⟨_ + 24, h⟩ => absurd h (Nat.not_lt.2 (Nat.le_add_left _ _))

/-- After round 2 (qubits 1, 2 traced). -/
def bits22 (a2 t4 t5 t6 a1 t8 t9 t10 a0 t12 t13 b2 b1 b0 : Fin 2) : T22.Idx := fun a => match a with
  | ⟨0, _⟩ => a2
  | ⟨1, _⟩ => t4
  | ⟨2, _⟩ => t5
  | ⟨3, _⟩ => t6
  | ⟨4, _⟩ => a1
  | ⟨5, _⟩ => t8
  | ⟨6, _⟩ => t9
  | ⟨7, _⟩ => t10
  | ⟨8, _⟩ => a0
  | ⟨9, _⟩ => t12
  | ⟨10, _⟩ => t13
  | ⟨11, _⟩ => b2
  | ⟨12, _⟩ => t4
  | ⟨13, _⟩ => t5
  | ⟨14, _⟩ => t6
  | ⟨15, _⟩ => b1
  | ⟨16, _⟩ => t8
  | ⟨17, _⟩ => t9
  | ⟨18, _⟩ => t10
  | ⟨19, _⟩ => b0
  | ⟨20, _⟩ => t12
  | ⟨21, _⟩ => t13
  | ⟨_ + 22, h⟩ => absurd h (Nat.not_lt.2 (Nat.le_add_left _ _))

/-- After round 3 (qubits 1, 2, 4 traced). -/
def bits20 (a2 t5 t6 a1 t8 t9 t10 a0 t12 t13 b2 b1 b0 : Fin 2) : T20.Idx := fun a => match a with
  | ⟨0, _⟩ => a2
  | ⟨1, _⟩ => t5
  | ⟨2, _⟩ => t6
  | ⟨3, _⟩ => a1
  | ⟨4, _⟩ => t8
  | ⟨5, _⟩ => t9
  | ⟨6, _⟩ => t10
  | ⟨7, _⟩ => a0
  | ⟨8, _⟩ => t12
  | ⟨9, _⟩ => t13
  | ⟨10, _⟩ => b2
  | ⟨11, _⟩ => t5
  | ⟨12, _⟩ => t6
  | ⟨13, _⟩ => b1
  | ⟨14, _⟩ => t8
  | ⟨15, _⟩ => t9
  | ⟨16, _⟩ => t10
  | ⟨17, _⟩ => b0
  | ⟨18, _⟩ => t12
  | ⟨19, _⟩ => t13
  | ⟨_ + 20, h⟩ => absurd h (Nat.not_lt.2 (Nat.le_add_left _ _))

/-- After round 4 (qubits 1, 2, 4, 5 traced). -/
def bits18 (a2 t6 a1 t8 t9 t10 a0 t12 t13 b2 b1 b0 : Fin 2) : T18.Idx := fun a => match a with
  | ⟨0, _⟩ => a2
  | ⟨1, _⟩ => t6
  | ⟨2, _⟩ => a1
  | ⟨3, _⟩ => t8
  | ⟨4, _⟩ => t9
  | ⟨5, _⟩ => t10
  | ⟨6, _⟩ => a0
  | ⟨7, _⟩ => t12
  | ⟨8, _⟩ => t13
  | ⟨9, _⟩ => b2
  | ⟨10, _⟩ => t6
  | ⟨11, _⟩ => b1
  | ⟨12, _⟩ => t8
  | ⟨13, _⟩ => t9
  | ⟨14, _⟩ => t10
  | ⟨15, _⟩ => b0
  | ⟨16, _⟩ => t12
  | ⟨17, _⟩ => t13
  | ⟨_ + 18, h⟩ => absurd h (Nat.not_lt.2 (Nat.le_add_left _ _))

/-- After round 5 (qubits 1, 2, 4, 5, 6 traced). -/
def bits16 (a2 a1 t8 t9 t10 a0 t12 t13 b2 b1 b0 : Fin 2) : T16.Idx := fun a => match a with
  | ⟨0, _⟩ => a2
  | ⟨1, _⟩ => a1
  | ⟨2, _⟩ => t8
  | ⟨3, _⟩ => t9
  | ⟨4, _⟩ => t10
  | ⟨5, _⟩ => a0
  | ⟨6, _⟩ => t12
  | ⟨7, _⟩ => t13
  | ⟨8, _⟩ => b2
  | ⟨9, _⟩ => b1
  | ⟨10, _⟩ => t8
  | ⟨11, _⟩ => t9
  | ⟨12, _⟩ => t10
  | ⟨13, _⟩ => b0
  | ⟨14, _⟩ => t12
  | ⟨15, _⟩ => t13
  | ⟨_ + 16, h⟩ => absurd h (Nat.not_lt.2 (Nat.le_add_left _ _))

/-- After round 6 (qubits 1, 2, 4, 5, 6, 8 traced). -/
def bits14 (a2 a1 t9 t10 a0 t12 t13 b2 b1 b0 : Fin 2) : T14.Idx := fun a => match a with
  | ⟨0, _⟩ => a2
  | ⟨1, _⟩ => a1
  | ⟨2, _⟩ => t9
  | ⟨3, _⟩ => t10
  | ⟨4, _⟩ => a0
  | ⟨5, _⟩ => t12
  | ⟨6, _⟩ => t13
  | ⟨7, _⟩ => b2
  | ⟨8, _⟩ => b1
  | ⟨9, _⟩ => t9
  | ⟨10, _⟩ => t10
  | ⟨11, _⟩ => b0
  | ⟨12, _⟩ => t12
  | ⟨13, _⟩ => t13

/-- After round 7 (qubits 1, 2, 4, 5, 6, 8, 9 traced). -/
def bits12 (a2 a1 t10 a0 t12 t13 b2 b1 b0 : Fin 2) : T12.Idx := fun a => match a with
  | ⟨0, _⟩ => a2
  | ⟨1, _⟩ => a1
  | ⟨2, _⟩ => t10
  | ⟨3, _⟩ => a0
  | ⟨4, _⟩ => t12
  | ⟨5, _⟩ => t13
  | ⟨6, _⟩ => b2
  | ⟨7, _⟩ => b1
  | ⟨8, _⟩ => t10
  | ⟨9, _⟩ => b0
  | ⟨10, _⟩ => t12
  | ⟨11, _⟩ => t13

/-- After round 8 (qubits 1, 2, 4, 5, 6, 8, 9, 10 traced). -/
def bits10 (a2 a1 a0 t12 t13 b2 b1 b0 : Fin 2) : T10.Idx := fun a => match a with
  | ⟨0, _⟩ => a2
  | ⟨1, _⟩ => a1
  | ⟨2, _⟩ => a0
  | ⟨3, _⟩ => t12
  | ⟨4, _⟩ => t13
  | ⟨5, _⟩ => b2
  | ⟨6, _⟩ => b1
  | ⟨7, _⟩ => b0
  | ⟨8, _⟩ => t12
  | ⟨9, _⟩ => t13

/-- After round 9 (only qubit 13 left to trace). -/
def bits8 (a2 a1 a0 t13 b2 b1 b0 : Fin 2) : T8.Idx := fun a => match a with
  | ⟨0, _⟩ => a2
  | ⟨1, _⟩ => a1
  | ⟨2, _⟩ => a0
  | ⟨3, _⟩ => t13
  | ⟨4, _⟩ => b2
  | ⟨5, _⟩ => b1
  | ⟨6, _⟩ => b0
  | ⟨7, _⟩ => t13

/-! ## The ten rounds

For each round: the masked array read at an index (`sel`), the index vector of the next array with the traced bit
inserted on its row axis and its column axis (`idx`), and the round itself (`step`). -/

variable (x0 : (⟨S1x1x8192x8192, .f32⟩ : BufTy).Contents (Elt Ideal))

/-! ### Round 1: qubit 1, axes 0 and 13 of the 26 -/

theorem sel1 (i : T26.Idx) :
    val_main_v6 (F := Ideal) x0 i = if (i 0).val = (i 13).val then val_main_v0 (F := Ideal) x0 i else 0 := by
  rw [val_main_v6_apply, val_main_v4_apply, val_main_v5_apply]
  show Scalar.select (IntOp.cmpi .eq (BitVec.ofNat 32 (i 0).val) (BitVec.ofNat 32 (i 13).val)) _ (Ideal.ofBits .f32 0x00000000#32) = _
  rw [Ideal.ofBits_zero_f32]
  exact select_cmpi_eq _ _ (i 0).isLt (i 13).isLt _ _

theorem idx1 (t1 t2 a2 t4 t5 t6 a1 t8 t9 t10 a0 t12 t13 b2 b1 b0 : Fin 2) :
    ins2 hs26 hs24 0 13 (tauOf 26 24 0 13 (by decide)) (bits24 t2 a2 t4 t5 t6 a1 t8 t9 t10 a0 t12 t13 b2 b1 b0) t1 t1
      = bits26 t1 t2 a2 t4 t5 t6 a1 t8 t9 t10 a0 t12 t13 b2 b1 b0 := by
  funext c
  fin_cases c <;> rfl

theorem step1 (t2 a2 t4 t5 t6 a1 t8 t9 t10 a0 t12 t13 b2 b1 b0 : Fin 2) :
    val_main_v7 (F := Ideal) x0 (bits24 t2 a2 t4 t5 t6 a1 t8 t9 t10 a0 t12 t13 b2 b1 b0)
      = ∑ t1 : Fin 2, val_main_v0 (F := Ideal) x0 (bits26 t1 t2 a2 t4 t5 t6 a1 t8 t9 t10 a0 t12 t13 b2 b1 b0) :=
  (reduceAdd_pair_masked hs26 hs24 0 13 (tauOf 26 24 0 13 (by decide)) _ _ _ (by decide) (by decide) (by decide) _ _ _
    (fun _ => Ideal.ofBits_zero_f32) (sel1 x0)).trans
    (Finset.sum_congr rfl fun t1 _ => congrArg (val_main_v0 (F := Ideal) x0) (idx1 t1 t2 a2 t4 t5 t6 a1 t8 t9 t10 a0 t12 t13 b2 b1 b0))

/-! ### Round 2: qubit 2, axes 0 and 12 of the 24 -/

theorem sel2 (i : T24.Idx) :
    val_main_v13 (F := Ideal) x0 i = if (i 0).val = (i 12).val then val_main_v7 (F := Ideal) x0 i else 0 := by
  rw [val_main_v13_apply, val_main_v11_apply, val_main_v12_apply]
  show Scalar.select (IntOp.cmpi .eq (BitVec.ofNat 32 (i 0).val) (BitVec.ofNat 32 (i 12).val)) _ (Ideal.ofBits .f32 0x00000000#32) = _
  rw [Ideal.ofBits_zero_f32]
  exact select_cmpi_eq _ _ (i 0).isLt (i 12).isLt _ _

theorem idx2 (t2 a2 t4 t5 t6 a1 t8 t9 t10 a0 t12 t13 b2 b1 b0 : Fin 2) :
    ins2 hs24 hs22 0 12 (tauOf 24 22 0 12 (by decide)) (bits22 a2 t4 t5 t6 a1 t8 t9 t10 a0 t12 t13 b2 b1 b0) t2 t2
      = bits24 t2 a2 t4 t5 t6 a1 t8 t9 t10 a0 t12 t13 b2 b1 b0 := by
  funext c
  fin_cases c <;> rfl

theorem step2 (a2 t4 t5 t6 a1 t8 t9 t10 a0 t12 t13 b2 b1 b0 : Fin 2) :
    val_main_v14 (F := Ideal) x0 (bits22 a2 t4 t5 t6 a1 t8 t9 t10 a0 t12 t13 b2 b1 b0)
      = ∑ t2 : Fin 2, val_main_v7 (F := Ideal) x0 (bits24 t2 a2 t4 t5 t6 a1 t8 t9 t10 a0 t12 t13 b2 b1 b0) :=
  (reduceAdd_pair_masked hs24 hs22 0 12 (tauOf 24 22 0 12 (by decide)) _ _ _ (by decide) (by decide) (by decide) _ _ _
    (fun _ => Ideal.ofBits_zero_f32) (sel2 x0)).trans
    (Finset.sum_congr rfl fun t2 _ => congrArg (val_main_v7 (F := Ideal) x0) (idx2 t2 a2 t4 t5 t6 a1 t8 t9 t10 a0 t12 t13 b2 b1 b0))

/-! ### Round 3: qubit 4, axes 1 and 12 of the 22 -/

theorem sel3 (i : T22.Idx) :
    val_main_v20 (F := Ideal) x0 i = if (i 1).val = (i 12).val then val_main_v14 (F := Ideal) x0 i else 0 := by
  rw [val_main_v20_apply, val_main_v18_apply, val_main_v19_apply]
  show Scalar.select (IntOp.cmpi .eq (BitVec.ofNat 32 (i 1).val) (BitVec.ofNat 32 (i 12).val)) _ (Ideal.ofBits .f32 0x00000000#32) = _
  rw [Ideal.ofBits_zero_f32]
  exact select_cmpi_eq _ _ (i 1).isLt (i 12).isLt _ _

theorem idx3 (a2 t4 t5 t6 a1 t8 t9 t10 a0 t12 t13 b2 b1 b0 : Fin 2) :
    ins2 hs22 hs20 1 12 (tauOf 22 20 1 12 (by decide)) (bits20 a2 t5 t6 a1 t8 t9 t10 a0 t12 t13 b2 b1 b0) t4 t4
      = bits22 a2 t4 t5 t6 a1 t8 t9 t10 a0 t12 t13 b2 b1 b0 := by
  funext c
  fin_cases c <;> rfl

theorem step3 (a2 t5 t6 a1 t8 t9 t10 a0 t12 t13 b2 b1 b0 : Fin 2) :
    val_main_v21 (F := Ideal) x0 (bits20 a2 t5 t6 a1 t8 t9 t10 a0 t12 t13 b2 b1 b0)
      = ∑ t4 : Fin 2, val_main_v14 (F := Ideal) x0 (bits22 a2 t4 t5 t6 a1 t8 t9 t10 a0 t12 t13 b2 b1 b0) :=
  (reduceAdd_pair_masked hs22 hs20 1 12 (tauOf 22 20 1 12 (by decide)) _ _ _ (by decide) (by decide) (by decide) _ _ _
    (fun _ => Ideal.ofBits_zero_f32) (sel3 x0)).trans
    (Finset.sum_congr rfl fun t4 _ => congrArg (val_main_v14 (F := Ideal) x0) (idx3 a2 t4 t5 t6 a1 t8 t9 t10 a0 t12 t13 b2 b1 b0))

/-! ### Round 4: qubit 5, axes 1 and 11 of the 20 -/

theorem sel4 (i : T20.Idx) :
    val_main_v27 (F := Ideal) x0 i = if (i 1).val = (i 11).val then val_main_v21 (F := Ideal) x0 i else 0 := by
  rw [val_main_v27_apply, val_main_v25_apply, val_main_v26_apply]
  show Scalar.select (IntOp.cmpi .eq (BitVec.ofNat 32 (i 1).val) (BitVec.ofNat 32 (i 11).val)) _ (Ideal.ofBits .f32 0x00000000#32) = _
  rw [Ideal.ofBits_zero_f32]
  exact select_cmpi_eq _ _ (i 1).isLt (i 11).isLt _ _

theorem idx4 (a2 t5 t6 a1 t8 t9 t10 a0 t12 t13 b2 b1 b0 : Fin 2) :
    ins2 hs20 hs18 1 11 (tauOf 20 18 1 11 (by decide)) (bits18 a2 t6 a1 t8 t9 t10 a0 t12 t13 b2 b1 b0) t5 t5
      = bits20 a2 t5 t6 a1 t8 t9 t10 a0 t12 t13 b2 b1 b0 := by
  funext c
  fin_cases c <;> rfl

theorem step4 (a2 t6 a1 t8 t9 t10 a0 t12 t13 b2 b1 b0 : Fin 2) :
    val_main_v28 (F := Ideal) x0 (bits18 a2 t6 a1 t8 t9 t10 a0 t12 t13 b2 b1 b0)
      = ∑ t5 : Fin 2, val_main_v21 (F := Ideal) x0 (bits20 a2 t5 t6 a1 t8 t9 t10 a0 t12 t13 b2 b1 b0) :=
  (reduceAdd_pair_masked hs20 hs18 1 11 (tauOf 20 18 1 11 (by decide)) _ _ _ (by decide) (by decide) (by decide) _ _ _
    (fun _ => Ideal.ofBits_zero_f32) (sel4 x0)).trans
    (Finset.sum_congr rfl fun t5 _ => congrArg (val_main_v21 (F := Ideal) x0) (idx4 a2 t5 t6 a1 t8 t9 t10 a0 t12 t13 b2 b1 b0))

/-! ### Round 5: qubit 6, axes 1 and 10 of the 18 -/

theorem sel5 (i : T18.Idx) :
    val_main_v34 (F := Ideal) x0 i = if (i 1).val = (i 10).val then val_main_v28 (F := Ideal) x0 i else 0 := by
  rw [val_main_v34_apply, val_main_v32_apply, val_main_v33_apply]
  show Scalar.select (IntOp.cmpi .eq (BitVec.ofNat 32 (i 1).val) (BitVec.ofNat 32 (i 10).val)) _ (Ideal.ofBits .f32 0x00000000#32) = _
  rw [Ideal.ofBits_zero_f32]
  exact select_cmpi_eq _ _ (i 1).isLt (i 10).isLt _ _

theorem idx5 (a2 t6 a1 t8 t9 t10 a0 t12 t13 b2 b1 b0 : Fin 2) :
    ins2 hs18 hs16 1 10 (tauOf 18 16 1 10 (by decide)) (bits16 a2 a1 t8 t9 t10 a0 t12 t13 b2 b1 b0) t6 t6
      = bits18 a2 t6 a1 t8 t9 t10 a0 t12 t13 b2 b1 b0 := by
  funext c
  fin_cases c <;> rfl

theorem step5 (a2 a1 t8 t9 t10 a0 t12 t13 b2 b1 b0 : Fin 2) :
    val_main_v35 (F := Ideal) x0 (bits16 a2 a1 t8 t9 t10 a0 t12 t13 b2 b1 b0)
      = ∑ t6 : Fin 2, val_main_v28 (F := Ideal) x0 (bits18 a2 t6 a1 t8 t9 t10 a0 t12 t13 b2 b1 b0) :=
  (reduceAdd_pair_masked hs18 hs16 1 10 (tauOf 18 16 1 10 (by decide)) _ _ _ (by decide) (by decide) (by decide) _ _ _
    (fun _ => Ideal.ofBits_zero_f32) (sel5 x0)).trans
    (Finset.sum_congr rfl fun t6 _ => congrArg (val_main_v28 (F := Ideal) x0) (idx5 a2 t6 a1 t8 t9 t10 a0 t12 t13 b2 b1 b0))

/-! ### Round 6: qubit 8, axes 2 and 10 of the 16 -/

theorem sel6 (i : T16.Idx) :
    val_main_v41 (F := Ideal) x0 i = if (i 2).val = (i 10).val then val_main_v35 (F := Ideal) x0 i else 0 := by
  rw [val_main_v41_apply, val_main_v39_apply, val_main_v40_apply]
  show Scalar.select (IntOp.cmpi .eq (BitVec.ofNat 32 (i 2).val) (BitVec.ofNat 32 (i 10).val)) _ (Ideal.ofBits .f32 0x00000000#32) = _
  rw [Ideal.ofBits_zero_f32]
  exact select_cmpi_eq _ _ (i 2).isLt (i 10).isLt _ _

theorem idx6 (a2 a1 t8 t9 t10 a0 t12 t13 b2 b1 b0 : Fin 2) :
    ins2 hs16 hs14 2 10 (tauOf 16 14 2 10 (by decide)) (bits14 a2 a1 t9 t10 a0 t12 t13 b2 b1 b0) t8 t8
      = bits16 a2 a1 t8 t9 t10 a0 t12 t13 b2 b1 b0 := by
  funext c
  fin_cases c <;> rfl

theorem step6 (a2 a1 t9 t10 a0 t12 t13 b2 b1 b0 : Fin 2) :
    val_main_v42 (F := Ideal) x0 (bits14 a2 a1 t9 t10 a0 t12 t13 b2 b1 b0)
      = ∑ t8 : Fin 2, val_main_v35 (F := Ideal) x0 (bits16 a2 a1 t8 t9 t10 a0 t12 t13 b2 b1 b0) :=
  (reduceAdd_pair_masked hs16 hs14 2 10 (tauOf 16 14 2 10 (by decide)) _ _ _ (by decide) (by decide) (by decide) _ _ _
    (fun _ => Ideal.ofBits_zero_f32) (sel6 x0)).trans
    (Finset.sum_congr rfl fun t8 _ => congrArg (val_main_v35 (F := Ideal) x0) (idx6 a2 a1 t8 t9 t10 a0 t12 t13 b2 b1 b0))

/-! ### Round 7: qubit 9, axes 2 and 9 of the 14 -/

theorem sel7 (i : T14.Idx) :
    val_main_v48 (F := Ideal) x0 i = if (i 2).val = (i 9).val then val_main_v42 (F := Ideal) x0 i else 0 := by
  rw [val_main_v48_apply, val_main_v46_apply, val_main_v47_apply]
  show Scalar.select (IntOp.cmpi .eq (BitVec.ofNat 32 (i 2).val) (BitVec.ofNat 32 (i 9).val)) _ (Ideal.ofBits .f32 0x00000000#32) = _
  rw [Ideal.ofBits_zero_f32]
  exact select_cmpi_eq _ _ (i 2).isLt (i 9).isLt _ _

theorem idx7 (a2 a1 t9 t10 a0 t12 t13 b2 b1 b0 : Fin 2) :
    ins2 hs14 hs12 2 9 (tauOf 14 12 2 9 (by decide)) (bits12 a2 a1 t10 a0 t12 t13 b2 b1 b0) t9 t9
      = bits14 a2 a1 t9 t10 a0 t12 t13 b2 b1 b0 := by
  funext c
  fin_cases c <;> rfl

theorem step7 (a2 a1 t10 a0 t12 t13 b2 b1 b0 : Fin 2) :
    val_main_v49 (F := Ideal) x0 (bits12 a2 a1 t10 a0 t12 t13 b2 b1 b0)
      = ∑ t9 : Fin 2, val_main_v42 (F := Ideal) x0 (bits14 a2 a1 t9 t10 a0 t12 t13 b2 b1 b0) :=
  (reduceAdd_pair_masked hs14 hs12 2 9 (tauOf 14 12 2 9 (by decide)) _ _ _ (by decide) (by decide) (by decide) _ _ _
    (fun _ => Ideal.ofBits_zero_f32) (sel7 x0)).trans
    (Finset.sum_congr rfl fun t9 _ => congrArg (val_main_v42 (F := Ideal) x0) (idx7 a2 a1 t9 t10 a0 t12 t13 b2 b1 b0))

/-! ### Round 8: qubit 10, axes 2 and 8 of the 12 -/

theorem sel8 (i : T12.Idx) :
    val_main_v55 (F := Ideal) x0 i = if (i 2).val = (i 8).val then val_main_v49 (F := Ideal) x0 i else 0 := by
  rw [val_main_v55_apply, val_main_v53_apply, val_main_v54_apply]
  show Scalar.select (IntOp.cmpi .eq (BitVec.ofNat 32 (i 2).val) (BitVec.ofNat 32 (i 8).val)) _ (Ideal.ofBits .f32 0x00000000#32) = _
  rw [Ideal.ofBits_zero_f32]
  exact select_cmpi_eq _ _ (i 2).isLt (i 8).isLt _ _

theorem idx8 (a2 a1 t10 a0 t12 t13 b2 b1 b0 : Fin 2) :
    ins2 hs12 hs10 2 8 (tauOf 12 10 2 8 (by decide)) (bits10 a2 a1 a0 t12 t13 b2 b1 b0) t10 t10
      = bits12 a2 a1 t10 a0 t12 t13 b2 b1 b0 := by
  funext c
  fin_cases c <;> rfl

theorem step8 (a2 a1 a0 t12 t13 b2 b1 b0 : Fin 2) :
    val_main_v56 (F := Ideal) x0 (bits10 a2 a1 a0 t12 t13 b2 b1 b0)
      = ∑ t10 : Fin 2, val_main_v49 (F := Ideal) x0 (bits12 a2 a1 t10 a0 t12 t13 b2 b1 b0) :=
  (reduceAdd_pair_masked hs12 hs10 2 8 (tauOf 12 10 2 8 (by decide)) _ _ _ (by decide) (by decide) (by decide) _ _ _
    (fun _ => Ideal.ofBits_zero_f32) (sel8 x0)).trans
    (Finset.sum_congr rfl fun t10 _ => congrArg (val_main_v49 (F := Ideal) x0) (idx8 a2 a1 t10 a0 t12 t13 b2 b1 b0))

/-! ### Round 9: qubit 12, axes 3 and 8 of the 10 -/

theorem sel9 (i : T10.Idx) :
    val_main_v62 (F := Ideal) x0 i = if (i 3).val = (i 8).val then val_main_v56 (F := Ideal) x0 i else 0 := by
  rw [val_main_v62_apply, val_main_v60_apply, val_main_v61_apply]
  show Scalar.select (IntOp.cmpi .eq (BitVec.ofNat 32 (i 3).val) (BitVec.ofNat 32 (i 8).val)) _ (Ideal.ofBits .f32 0x00000000#32) = _
  rw [Ideal.ofBits_zero_f32]
  exact select_cmpi_eq _ _ (i 3).isLt (i 8).isLt _ _

theorem idx9 (a2 a1 a0 t12 t13 b2 b1 b0 : Fin 2) :
    ins2 hs10 hs8 3 8 (tauOf 10 8 3 8 (by decide)) (bits8 a2 a1 a0 t13 b2 b1 b0) t12 t12
      = bits10 a2 a1 a0 t12 t13 b2 b1 b0 := by
  funext c
  fin_cases c <;> rfl

theorem step9 (a2 a1 a0 t13 b2 b1 b0 : Fin 2) :
    val_main_v63 (F := Ideal) x0 (bits8 a2 a1 a0 t13 b2 b1 b0)
      = ∑ t12 : Fin 2, val_main_v56 (F := Ideal) x0 (bits10 a2 a1 a0 t12 t13 b2 b1 b0) :=
  (reduceAdd_pair_masked hs10 hs8 3 8 (tauOf 10 8 3 8 (by decide)) _ _ _ (by decide) (by decide) (by decide) _ _ _
    (fun _ => Ideal.ofBits_zero_f32) (sel9 x0)).trans
    (Finset.sum_congr rfl fun t12 _ => congrArg (val_main_v56 (F := Ideal) x0) (idx9 a2 a1 a0 t12 t13 b2 b1 b0))

/-! ### Round 10: qubit 13, axes 3 and 7 of the 8 -/

theorem sel10 (i : T8.Idx) :
    val_main_v69 (F := Ideal) x0 i = if (i 3).val = (i 7).val then val_main_v63 (F := Ideal) x0 i else 0 := by
  rw [val_main_v69_apply, val_main_v67_apply, val_main_v68_apply]
  show Scalar.select (IntOp.cmpi .eq (BitVec.ofNat 32 (i 3).val) (BitVec.ofNat 32 (i 7).val)) _ (Ideal.ofBits .f32 0x00000000#32) = _
  rw [Ideal.ofBits_zero_f32]
  exact select_cmpi_eq _ _ (i 3).isLt (i 7).isLt _ _

theorem idx10 (a2 a1 a0 t13 b2 b1 b0 : Fin 2) :
    ins2 hs8 hs6 3 7 (tauOf 8 6 3 7 (by decide)) (bits6 a2 a1 a0 b2 b1 b0) t13 t13
      = bits8 a2 a1 a0 t13 b2 b1 b0 := by
  funext c
  fin_cases c <;> rfl

theorem step10 (a2 a1 a0 b2 b1 b0 : Fin 2) :
    val_main_v70 (F := Ideal) x0 (bits6 a2 a1 a0 b2 b1 b0)
      = ∑ t13 : Fin 2, val_main_v63 (F := Ideal) x0 (bits8 a2 a1 a0 t13 b2 b1 b0) :=
  (reduceAdd_pair_masked hs8 hs6 3 7 (tauOf 8 6 3 7 (by decide)) _ _ _ (by decide) (by decide) (by decide) _ _ _
    (fun _ => Ideal.ofBits_zero_f32) (sel10 x0)).trans
    (Finset.sum_congr rfl fun t13 _ => congrArg (val_main_v63 (F := Ideal) x0) (idx10 a2 a1 a0 t13 b2 b1 b0))

/-! ## The ten rounds chained -/

/-- The ten mask-and-sum rounds: each keeps, of the four entries over a pair (row bit, column bit) of one traced qubit,
    the two where the bits agree, and adds them. After all ten the entry at the kept bits is the sum over the traced
    bits of the 2^26 array at the index that repeats every traced bit in row and column — qubit 1's round innermost. -/
theorem rounds_eq (x0 : (⟨S1x1x8192x8192, .f32⟩ : BufTy).Contents (Elt Ideal)) (a2 a1 a0 b2 b1 b0 : Fin 2) :
    val_main_v70 (F := Ideal) x0 (bits6 a2 a1 a0 b2 b1 b0)
      = ∑ t13 : Fin 2, ∑ t12 : Fin 2, ∑ t10 : Fin 2, ∑ t9 : Fin 2, ∑ t8 : Fin 2, ∑ t6 : Fin 2, ∑ t5 : Fin 2, ∑ t4 : Fin 2, ∑ t2 : Fin 2, ∑ t1 : Fin 2,
          val_main_v0 (F := Ideal) x0 (bits26 t1 t2 a2 t4 t5 t6 a1 t8 t9 t10 a0 t12 t13 b2 b1 b0) := by
  rw [step10]; refine Finset.sum_congr rfl fun t13 _ => ?_
  rw [step9]; refine Finset.sum_congr rfl fun t12 _ => ?_
  rw [step8]; refine Finset.sum_congr rfl fun t10 _ => ?_
  rw [step7]; refine Finset.sum_congr rfl fun t9 _ => ?_
  rw [step6]; refine Finset.sum_congr rfl fun t8 _ => ?_
  rw [step5]; refine Finset.sum_congr rfl fun t6 _ => ?_
  rw [step4]; refine Finset.sum_congr rfl fun t5 _ => ?_
  rw [step3]; refine Finset.sum_congr rfl fun t4 _ => ?_
  rw [step2]; refine Finset.sum_congr rfl fun t2 _ => ?_
  rw [step1]

end Cert.ReferenceIdeal.RefValue

end
-- ==== Proof.RefValue.lean ====
import proofs.«134312_j28183575396357_1_alg».proof.Proof.Gen.ReferenceIdeal.Run
import proofs.«134312_j28183575396357_1_alg».proof.Proof.Gen.ReferenceIdeal.Read
import proofs.«134312_j28183575396357_1_alg».proof.Proof.RefIdx
import proofs.«134312_j28183575396357_1_alg».proof.Proof.RefRounds
import proofs.«134312_j28183575396357_1_alg».proof.Proof.Spec
import Idealize.ShloMosaic.Lib.ValueIdxRank6
import Idealize.ShloMosaic.Lib.Pipeline.Value

noncomputable section

namespace Cert.ReferenceIdeal.RefValue

open Cert.ReferenceIdeal Cert.ReferenceIdeal.Read Idealize.ShloMosaic Idealize.ShloMosaic.ValueIdx

/-- The number a string of n digits spells in binary, most significant digit first. -/
def binVal : (n : Nat) → (Fin n → Nat) → Nat
  | 0, _ => 0
  | n + 1, f => f 0 * 2 ^ n + binVal n (fun a => f a.succ)

/-- In an array whose every axis has extent 2, the row-major position of an index is the number its coordinates
    spell in binary: peel the leading axis, whose stride is the product 2^n of the remaining extents. -/
theorem rowMajorPi_binVal : ∀ (n : Nat) (d : Fin n → Nat) (_ : ∀ a, d a = 2) (x : (a : Fin n) → Fin (d a)),
    (Shape.rowMajorPi d x).val = binVal n (fun a => (x a).val)
  | 0, d, _, x => Shape.rowMajorPi_zero d x
  | n + 1, d, hd, x => by
      have hprod : (∏ a : Fin n, d a.succ) = 2 ^ n := by
        rw [Finset.prod_congr rfl (fun a _ => hd a.succ), Finset.prod_const, Finset.card_univ, Fintype.card_fin]
      rw [Shape.rowMajorPi_succ_val, rowMajorPi_binVal n (fun a => d a.succ) (fun a => hd a.succ) (fun a => x a.succ), hprod]
      rfl

/-- The position of a bit index in the 2^26 array, as the binary number of its 26 bits. -/
theorem rowMajor_bits26 (t1 t2 a2 t4 t5 t6 a1 t8 t9 t10 a0 t12 t13 b2 b1 b0 : Fin 2) :
    (S2x2x2x2x2x2x2x2x2x2x2x2x2x2x2x2x2x2x2x2x2x2x2x2x2x2.rowMajor (bits26 t1 t2 a2 t4 t5 t6 a1 t8 t9 t10 a0 t12 t13 b2 b1 b0)).val
      = t1.val * 2 ^ 25 + (t2.val * 2 ^ 24 + (a2.val * 2 ^ 23 + (t4.val * 2 ^ 22 + (t5.val * 2 ^ 21 + (t6.val * 2 ^ 20 + (a1.val * 2 ^ 19
        + (t8.val * 2 ^ 18 + (t9.val * 2 ^ 17 + (t10.val * 2 ^ 16 + (a0.val * 2 ^ 15 + (t12.val * 2 ^ 14 + (t13.val * 2 ^ 13
        + (t1.val * 2 ^ 12 + (t2.val * 2 ^ 11 + (b2.val * 2 ^ 10 + (t4.val * 2 ^ 9 + (t5.val * 2 ^ 8 + (t6.val * 2 ^ 7 + (b1.val * 2 ^ 6
        + (t8.val * 2 ^ 5 + (t9.val * 2 ^ 4 + (t10.val * 2 ^ 3 + (b0.val * 2 ^ 2 + (t12.val * 2 ^ 1 + (t13.val * 2 ^ 0 + 0))))))))))))))))))))))))) := by
  show (Shape.rowMajorPi _ (bits26 t1 t2 a2 t4 t5 t6 a1 t8 t9 t10 a0 t12 t13 b2 b1 b0)).val = _
  rw [rowMajorPi_binVal 26 _ (by decide)]
  rfl

/-- The first reshape only regroups positions: the 2^26 array at a bit index is the argument at the row and column
    those bits spell in binary, most significant first. -/
theorem v0_read (x0 : (⟨S1x1x8192x8192, .f32⟩ : BufTy).Contents (Elt Ideal)) (t1 t2 a2 t4 t5 t6 a1 t8 t9 t10 a0 t12 t13 b2 b1 b0 : Fin 2) :
    val_main_v0 (F := Ideal) x0 (bits26 t1 t2 a2 t4 t5 t6 a1 t8 t9 t10 a0 t12 t13 b2 b1 b0)
      = x0 (ix4 (0 : Fin 1) (0 : Fin 1)
          (⟨t1.val * 4096 + t2.val * 2048 + a2.val * 1024 + t4.val * 512 + t5.val * 256 + t6.val * 128 + a1.val * 64 + t8.val * 32 + t9.val * 16
              + t10.val * 8 + a0.val * 4 + t12.val * 2 + t13.val, by omega⟩ : Fin 8192)
          (⟨t1.val * 4096 + t2.val * 2048 + b2.val * 1024 + t4.val * 512 + t5.val * 256 + t6.val * 128 + b1.val * 64 + t8.val * 32 + t9.val * 16
              + t10.val * 8 + b0.val * 4 + t12.val * 2 + t13.val, by omega⟩ : Fin 8192)) := by
  unfold val_main_v0
  refine shapeCast_apply x0 _ _ _ ?_
  -- both positions as natural numbers: row * 8192 + column on the left, the 26-bit binary number on the right
  rw [rowMajor_bits26, Shape.rowMajor_val_four]
  show ((((0 : Fin 1).val * 1 + (0 : Fin 1).val) * 8192
      + (t1.val * 4096 + t2.val * 2048 + a2.val * 1024 + t4.val * 512 + t5.val * 256 + t6.val * 128 + a1.val * 64 + t8.val * 32 + t9.val * 16
          + t10.val * 8 + a0.val * 4 + t12.val * 2 + t13.val)) * 8192
      + (t1.val * 4096 + t2.val * 2048 + b2.val * 1024 + t4.val * 512 + t5.val * 256 + t6.val * 128 + b1.val * 64 + t8.val * 32 + t9.val * 16
          + t10.val * 8 + b0.val * 4 + t12.val * 2 + t13.val)) = _
  have h0 : (0 : Fin 1).val = 0 := rfl
  rw [h0]
  omega

/-- The last reshape reads entry (a, b) of the 8 × 8 result at the three bits of a and the three bits of b. -/
theorem v71_read (x0 : (⟨S1x1x8192x8192, .f32⟩ : BufTy).Contents (Elt Ideal)) (a b : Fin 8) :
    val_main_v71 (F := Ideal) x0 (ix2 a b)
      = val_main_v70 (F := Ideal) x0 (bits6 ⟨a.val / 4, by omega⟩ ⟨a.val / 2 % 2, by omega⟩ ⟨a.val % 2, by omega⟩
          ⟨b.val / 4, by omega⟩ ⟨b.val / 2 % 2, by omega⟩ ⟨b.val % 2, by omega⟩) := by
  unfold val_main_v71
  refine shapeCast_apply _ _ _ _ ?_
  -- 8 a + b on the right; on the left the six bits in binary
  rw [Shape.rowMajor_val_two, Shape.rowMajor_val_six]
  show (((((a.val / 4) * 2 + a.val / 2 % 2) * 2 + a.val % 2) * 2 + b.val / 4) * 2 + b.val / 2 % 2) * 2 + b.val % 2 = a.val * 8 + b.val
  have := a.isLt; have := b.isLt
  omega

/-- The reference's result, read on the extended reals, is the bit-by-bit partial trace of its argument. -/
theorem result_eq (x0 : (⟨S1x1x8192x8192, .f32⟩ : BufTy).Contents (Elt Ideal)) :
    Cert.ReferenceIdeal.Read.val_main_v71 (F := Ideal) x0 = Cert.PartialTrace.bitTrace x0 := by
  funext j
  obtain ⟨a, b, rfl⟩ : ∃ (a b : Fin 8), j = ix2 a b := ⟨j 0, j 1, eq_ix2 j⟩
  -- entry (a, b): the last reshape splits a and b into their bits, the ten rounds sum over the traced bits
  rw [v71_read, rounds_eq]
  unfold Cert.PartialTrace.bitTrace
  refine Finset.sum_congr rfl fun t13 _ => ?_
  refine Finset.sum_congr rfl fun t12 _ => ?_
  refine Finset.sum_congr rfl fun t10 _ => ?_
  refine Finset.sum_congr rfl fun t9 _ => ?_
  refine Finset.sum_congr rfl fun t8 _ => ?_
  refine Finset.sum_congr rfl fun t6 _ => ?_
  refine Finset.sum_congr rfl fun t5 _ => ?_
  refine Finset.sum_congr rfl fun t4 _ => ?_
  refine Finset.sum_congr rfl fun t2 _ => ?_
  refine Finset.sum_congr rfl fun t1 _ => ?_
  -- the summand: the first reshape's entry is the argument at the row and column the bits spell, and the kept bits
  -- a / 4, a / 2 % 2, a % 2 sit at the weights 1024, 64 and 4 exactly as in the position formula
  rw [v0_read]
  refine congrArg x0 ?_
  unfold Cert.PartialTrace.pos
  rfl

end Cert.ReferenceIdeal.RefValue

end
-- ==== Proof.GroupsEqBits.lean ====
import proofs.«134312_j28183575396357_1_alg».proof.Proof.Spec
import Mathlib.Algebra.BigOperators.Fin
import Mathlib.Tactic.Abel

noncomputable section

namespace Cert.PartialTrace

open Idealize.ShloMosaic Idealize.ShloMosaic.ValueIdx

namespace GroupsEqBits

/-! ## A sum over four or eight terms, one binary sum per bit

The low bit's sum is the outermost one. Only commutativity and associativity of the addition are used. -/

/-- Four terms as two binary sums: the index is `2 * hi + lo`, the sum over `lo` outside. -/
theorem sum_fin4_bits {M : Type} [AddCommMonoid M] (f : Fin 4 → M) :
    ∑ l, f l = ∑ lo : Fin 2, ∑ hi : Fin 2,
      f ⟨2 * hi.val + lo.val, by have := hi.isLt; have := lo.isLt; omega⟩ := by
  simp only [Fin.sum_univ_four, Fin.sum_univ_two]
  show f 0 + f 1 + f 2 + f 3 = (f 0 + f 2) + (f 1 + f 3)
  abel

/-- Eight terms as three binary sums: the index is `4 * b2 + 2 * b1 + b0`, the sum over `b0` outermost and the one
    over `b2` innermost. -/
theorem sum_fin8_bits {M : Type} [AddCommMonoid M] (f : Fin 8 → M) :
    ∑ l, f l = ∑ b0 : Fin 2, ∑ b1 : Fin 2, ∑ b2 : Fin 2,
      f ⟨4 * b2.val + 2 * b1.val + b0.val, by have := b2.isLt; have := b1.isLt; have := b0.isLt; omega⟩ := by
  simp only [Fin.sum_univ_eight, Fin.sum_univ_two]
  show f 0 + f 1 + f 2 + f 3 + f 4 + f 5 + f 6 + f 7
    = ((f 0 + f 4) + (f 2 + f 6)) + ((f 1 + f 5) + (f 3 + f 7))
  abel

/-! ## The argument read at natural-number positions

Reading the argument through a total function of two naturals (zero outside the array) removes the bound proofs
from the summands, so that two summands are equal as soon as their positions are equal numbers. -/

/-- Entry (r, c) of the density matrix, and zero when a position is out of range. -/
def entry (x : Arg) (r c : Nat) : EReal :=
  if h : r < 8192 ∧ c < 8192 then
    x (ix4 (0 : Fin 1) (0 : Fin 1) (⟨r, h.1⟩ : Fin 8192) (⟨c, h.2⟩ : Fin 8192))
  else 0

theorem entry_eq (x : Arg) {r c : Nat} (hr : r < 8192) (hc : c < 8192) :
    x (ix4 (0 : Fin 1) (0 : Fin 1) (⟨r, hr⟩ : Fin 8192) (⟨c, hc⟩ : Fin 8192)) = entry x r c := by
  unfold entry; rw [dif_pos ⟨hr, hc⟩]

/-! ## Each group map read at an index given by its two coordinates -/

theorem flat_ix2 (x : Arg) (p q : Fin 8192) : flat x (ix2 p q) = entry x p.val q.val :=
  entry_eq x p.isLt q.isLt

theorem diag4_ix2 (X : Mat 8192) (p q : Fin 2048) :
    diag4 X (ix2 p q) = ∑ d : Fin 4,
      X (ix2 (⟨d.val * 2048 + p.val, by have := p.isLt; have := d.isLt; omega⟩ : Fin 8192)
        (⟨d.val * 2048 + q.val, by have := q.isLt; have := d.isLt; omega⟩ : Fin 8192)) := rfl

theorem strips8_ix2 (X : Mat 2048) (p q : Fin 256) :
    strips8 X (ix2 p q) = ∑ l : Fin 8,
      X (ix2 (⟨src8a p.val l.val, src8a_lt p.isLt l.isLt⟩ : Fin 2048)
        (⟨src8a q.val l.val, src8a_lt q.isLt l.isLt⟩ : Fin 2048)) := rfl

theorem cells8_ix2 (X : Mat 256) (p q : Fin 32) :
    cells8 X (ix2 p q) = ∑ l : Fin 8,
      X (ix2 (⟨src8b p.val l.val, src8b_lt p.isLt l.isLt⟩ : Fin 256)
        (⟨src8b q.val l.val, src8b_lt q.isLt l.isLt⟩ : Fin 256)) := rfl

theorem pairs4_apply (X : Mat 32) (j : (⟨2, ![8, 8]⟩ : Shape).Idx) :
    pairs4 X j = ∑ l : Fin 4,
      X (ix2 (⟨src4 (j 0).val l.val, src4_lt (idx2_lt0 j) l.isLt⟩ : Fin 32)
        (⟨src4 (j 1).val l.val, src4_lt (idx2_lt1 j) l.isLt⟩ : Fin 32)) := rfl

/-- The group-by-group trace as one fourfold sum of entries: the four maps only compose the position maps. -/
theorem byGroups_apply (x : Arg) (j : (⟨2, ![8, 8]⟩ : Shape).Idx) :
    byGroups x j = ∑ l3 : Fin 4, ∑ l2 : Fin 8, ∑ l1 : Fin 8, ∑ d : Fin 4,
      entry x (d.val * 2048 + src8a (src8b (src4 (j 0).val l3.val) l2.val) l1.val)
        (d.val * 2048 + src8a (src8b (src4 (j 1).val l3.val) l2.val) l1.val) := by
  unfold byGroups
  rw [pairs4_apply]
  simp only [cells8_ix2, strips8_ix2, diag4_ix2, flat_ix2, Fin.val_mk]

/-- The bit-by-bit trace as a tenfold sum of entries. -/
theorem bitTrace_apply (x : Arg) (j : (⟨2, ![8, 8]⟩ : Shape).Idx) :
    bitTrace x j = ∑ t13 : Fin 2, ∑ t12 : Fin 2, ∑ t10 : Fin 2, ∑ t9 : Fin 2, ∑ t8 : Fin 2, ∑ t6 : Fin 2,
      ∑ t5 : Fin 2, ∑ t4 : Fin 2, ∑ t2 : Fin 2, ∑ t1 : Fin 2,
      entry x (pos (j 0).val t1.val t2.val t4.val t5.val t6.val t8.val t9.val t10.val t12.val t13.val)
        (pos (j 1).val t1.val t2.val t4.val t5.val t6.val t8.val t9.val t10.val t12.val t13.val) := by
  unfold bitTrace
  simp only [entry_eq]

/-- The position reached through the four groups is the position with the same bits written one by one. -/
theorem groups_pos {a t1 t2 t4 t5 t6 t8 t9 t10 t12 t13 : Nat} (ha : a < 8) (h1 : t1 < 2) (h2 : t2 < 2) (h4 : t4 < 2)
    (h5 : t5 < 2) (h6 : t6 < 2) (h8 : t8 < 2) (h9 : t9 < 2) (h10 : t10 < 2) (h12 : t12 < 2) (h13 : t13 < 2) :
    (2 * t1 + t2) * 2048
        + src8a (src8b (src4 a (2 * t12 + t13)) (4 * t8 + 2 * t9 + t10)) (4 * t4 + 2 * t5 + t6)
      = pos a t1 t2 t4 t5 t6 t8 t9 t10 t12 t13 := by
  -- through the 32-matrix: the kept bits a₂ a₁ stay on top, a₀ sits above bits 12–13
  have e1 : src8b (src4 a (2 * t12 + t13)) (4 * t8 + 2 * t9 + t10)
      = a / 2 * 64 + t8 * 32 + t9 * 16 + t10 * 8 + a % 2 * 4 + t12 * 2 + t13 := by
    unfold src8b src4
    have q1 : (a * 4 + (2 * t12 + t13)) / 8 = a / 2 := by omega
    have q2 : (a * 4 + (2 * t12 + t13)) % 8 = a % 2 * 4 + t12 * 2 + t13 := by omega
    rw [q1, q2]; omega
  -- through the 256-matrix: a₂ stays on top, a₁ sits above bits 8–10
  have e2 : src8a (a / 2 * 64 + t8 * 32 + t9 * 16 + t10 * 8 + a % 2 * 4 + t12 * 2 + t13) (4 * t4 + 2 * t5 + t6)
      = a / 4 * 1024 + t4 * 512 + t5 * 256 + t6 * 128 + a / 2 % 2 * 64 + t8 * 32 + t9 * 16 + t10 * 8 + a % 2 * 4
        + t12 * 2 + t13 := by
    unfold src8a
    have q1 : (a / 2 * 64 + t8 * 32 + t9 * 16 + t10 * 8 + a % 2 * 4 + t12 * 2 + t13) / 128 = a / 4 := by omega
    have q2 : (a / 2 * 64 + t8 * 32 + t9 * 16 + t10 * 8 + a % 2 * 4 + t12 * 2 + t13) % 128
        = a / 2 % 2 * 64 + t8 * 32 + t9 * 16 + t10 * 8 + a % 2 * 4 + t12 * 2 + t13 := by omega
    rw [q1, q2]; omega
  rw [e1, e2]
  unfold pos
  omega

end GroupsEqBits

open GroupsEqBits in
/-- Summing group by group and summing bit by bit give the same partial trace. -/
theorem groups_eq_bits (x : Arg) : byGroups x = bitTrace x := by
  funext j
  rw [byGroups_apply, bitTrace_apply]
  -- bits 12–13
  rw [sum_fin4_bits]
  refine Finset.sum_congr rfl fun t13 _ => Finset.sum_congr rfl fun t12 _ => ?_
  -- bits 8–10
  rw [sum_fin8_bits]
  refine Finset.sum_congr rfl fun t10 _ => Finset.sum_congr rfl fun t9 _ => Finset.sum_congr rfl fun t8 _ => ?_
  -- bits 4–6
  rw [sum_fin8_bits]
  refine Finset.sum_congr rfl fun t6 _ => Finset.sum_congr rfl fun t5 _ => Finset.sum_congr rfl fun t4 _ => ?_
  -- bits 1–2
  rw [sum_fin4_bits]
  refine Finset.sum_congr rfl fun t2 _ => Finset.sum_congr rfl fun t1 _ => ?_
  exact congrArg₂ (entry x)
    (groups_pos (idx2_lt0 j) t1.isLt t2.isLt t4.isLt t5.isLt t6.isLt t8.isLt t9.isLt t10.isLt t12.isLt t13.isLt)
    (groups_pos (idx2_lt1 j) t1.isLt t2.isLt t4.isLt t5.isLt t6.isLt t8.isLt t9.isLt t10.isLt t12.isLt t13.isLt)

end Cert.PartialTrace

end
-- ==== Proof.lean ====
/-
  The kernel and the reference both compute the partial trace of a 13-qubit density matrix (8192 × 8192) that keeps
  qubits 3, 7 and 11: entry (a, b) of the 8 × 8 result is the sum over the 2^10 settings of the traced bits of the entry
  whose row carries a's bits and whose column carries b's bits, with the same traced bits in both.
  The kernel sums by groups: a pipelined region adds the four diagonal 2048 × 2048 blocks (bits 1–2), then array
  operations add eight diagonal strips twice (bits 4–6, 8–10) and four diagonal cells (bits 12–13). The reference sums bit
  by bit: ten rounds, each keeping of the four entries over one traced qubit's (row bit, column bit) the two where they
  agree. Both are finite sums of the same entries in a commutative monoid — the extended reals under addition — so they
  are equal with no hypothesis on the entries: the finiteness precondition is never opened.
  Each program also runs to the end without fault and leaves its argument as it found it; the idealized kernel is the
  word-level kernel's own text read at the exact instance (the ideal pass rewrote nothing).
-/
import proofs.«134312_j28183575396357_1_alg».proof.Defs
import proofs.«134312_j28183575396357_1_alg».proof.Proof.Gen.Kernel
import proofs.«134312_j28183575396357_1_alg».proof.Proof.Gen.KernelIdeal
import proofs.«134312_j28183575396357_1_alg».proof.Proof.Gen.ReferenceIdeal
import proofs.«134312_j28183575396357_1_alg».proof.Proof.Gen.Pre_finite_inputs
import proofs.«134312_j28183575396357_1_alg».proof.Proof.Gen.ReferenceIdeal.Run
import proofs.«134312_j28183575396357_1_alg».proof.Proof.Gen.ReferenceIdeal.Read
import proofs.«134312_j28183575396357_1_alg».proof.Proof.FrameK.Frame
import proofs.«134312_j28183575396357_1_alg».proof.Proof.FrameKI.Frame
import proofs.«134312_j28183575396357_1_alg».proof.Proof.KernelValue
import proofs.«134312_j28183575396357_1_alg».proof.Proof.RefValue
import proofs.«134312_j28183575396357_1_alg».proof.Proof.GroupsEqBits
import Idealize.ShloMosaic.Adequacy
import Idealize.ShloMosaic.Init

set_option maxRecDepth 16384

noncomputable section

namespace Cert.Proof

open Idealize.ShloMosaic Idealize.ShloMosaic.TcCoe Idealize.SL.Sem

namespace Claims

/-- The word-level kernel runs and leaves its argument unchanged. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference is array operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

set_option maxHeartbeats 8000000 in
/-- From arguments that agree, the idealized kernel ends at the partial trace summed by groups and the reference at the
    partial trace summed bit by bit: the same function of the argument. -/
theorem algebraic : Cert.algebraic_KernelIdeal_ReferenceIdeal := by
  intro m ρ m' ρ' _ hagree
  refine ⟨fun c => Cert.PartialTrace.byGroups (m ((c.tc : Thread Cert.KernelIdeal.nD Cert.KernelIdeal.τ).loc Cert.KernelIdeal.main_arg0)), ?_, ?_⟩
  · refine (θ_run Cert.KernelIdeal.defs _ _).mono (fun _ h c => ⟨?_, ?_⟩) (Cert.KernelIdeal.Frame.run_main (F := Ideal) m ρ)
    · exact ((h c).2 Cert.KernelIdeal.main_v70 (Pipeline.mem_restRefs_of Cert.KernelIdeal.main_v70 (by decide) (by decide))).trans
        (Cert.KernelIdeal.KernelValue.result_value m c)
    · exact ((h c).2 Cert.KernelIdeal.main_arg0 (Pipeline.mem_restRefs_of Cert.KernelIdeal.main_arg0 (by decide) (by decide))).trans
        (Cert.KernelIdeal.Frame.W_main_arg0 m (Cert.KernelIdeal.Frame.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v71_eq, Cert.ReferenceIdeal.RefValue.result_eq, hagree c]
    exact (Cert.PartialTrace.groups_eq_bits _).symm

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
